-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : IVec S64x512 32) (main_arg1 : FVec F S2048x512 .f32) (main_arg2 : FVec F S2048x512 .f32) : IVec S_ 1 :=
  let main_v0 : FVec F S2048x512 .f32 := Host.absf main_arg1
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg2
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_c_2 : IVec S_ 32 := constantI S_ 32 0#32
  let main_v9 : IVec S64x512 32 := broadcastInDim S64x512 ![] bcast_S_S64x512 main_c_2
  let main_v10 : IVec S64x512 1 := cmpi .sge main_arg0 main_v9
  let main_c_3 : IVec S_ 32 := constantI S_ 32 2048#32
  let main_v11 : IVec S64x512 32 := broadcastInDim S64x512 ![] bcast_S_S64x512 main_c_3
  let main_v12 : IVec S64x512 1 := cmpi .slt main_arg0 main_v11
  let main_v13 : IVec S64x512 1 := andi main_v10 main_v12
  let main_c_4 : IVec S_ 1 := constantI S_ 1 1#1
  let main_v14 : IVec S_ 1 := (fun x v => Host.reduce IntOp.andi x v reducesTo_S64x512_S_d0_1 h_S_) main_v13 main_c_4
  let main_v15 : IVec S_ 1 := andi main_v8 main_v14
  main_v15
-- ==== Kernel.lean ====
abbrev S64x512 : Shape := ⟨2, ![64, 512]⟩
abbrev S2048x512 : Shape := ⟨2, ![2048, 512]⟩
abbrev S64x511 : Shape := ⟨2, ![64, 511]⟩
abbrev S2048x2048 : Shape := ⟨2, ![2048, 2048]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S_ : Shape := ⟨0, ![]⟩
abbrev S64x511x1 : Shape := ⟨3, ![64, 511, 1]⟩
abbrev S64x511x2 : Shape := ⟨3, ![64, 511, 2]⟩

abbrev nBuf : Space → Nat
  | .hbm => 26
  | .vmem => 5
  | .smem => 0
  | _ => 0

abbrev bufTy : (tb : Table) → Fin (tcTables nBuf tb) → BufTy
  | .hbm, ⟨0, _⟩ => ⟨S64x512, .i32⟩
  | .hbm, ⟨1, _⟩ => ⟨S2048x512, .f32⟩
  | .hbm, ⟨2, _⟩ => ⟨S2048x512, .f32⟩
  | .hbm, ⟨3, _⟩ => ⟨S64x511, .i32⟩
  | .hbm, ⟨4, _⟩ => ⟨S64x511, .i32⟩
  | .hbm, ⟨5, _⟩ => ⟨S2048x512, .bf16⟩
  | .hbm, ⟨6, _⟩ => ⟨S2048x512, .bf16⟩
  | .hbm, ⟨7, _⟩ => ⟨S2048x2048, .f32⟩
  | .hbm, ⟨8, _⟩ => ⟨S_, .i32⟩
  | .hbm, ⟨9, _⟩ => ⟨S64x511, .i32⟩
  | .hbm, ⟨10, _⟩ => ⟨S64x511, .i1⟩
  | .hbm, ⟨11, _⟩ => ⟨S_, .i32⟩
  | .hbm, ⟨12, _⟩ => ⟨S64x511, .i32⟩
  | .hbm, ⟨13, _⟩ => ⟨S64x511, .i32⟩
  | .hbm, ⟨14, _⟩ => ⟨S64x511, .i32⟩
  | .hbm, ⟨15, _⟩ => ⟨S_, .i32⟩
  | .hbm, ⟨16, _⟩ => ⟨S64x511, .i32⟩
  | .hbm, ⟨17, _⟩ => ⟨S64x511, .i1⟩
  | .hbm, ⟨18, _⟩ => ⟨S_, .i32⟩
  | .hbm, ⟨19, _⟩ => ⟨S64x511, .i32⟩
  | .hbm, ⟨20, _⟩ => ⟨S64x511, .i32⟩
  | .hbm, ⟨21, _⟩ => ⟨S64x511, .i32⟩
  | .hbm, ⟨22, _⟩ => ⟨S64x511x1, .i32⟩
  | .hbm, ⟨23, _⟩ => ⟨S64x511x1, .i32⟩
  | .hbm, ⟨24, _⟩ => ⟨S64x511x2, .i32⟩
  | .hbm, ⟨25, _⟩ => ⟨S64x511, .f32⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S256x2048, .f32⟩
  | .local _ .vmem, ⟨4, _⟩ => ⟨S256x2048, .f32⟩
  | _, _ => ⟨S64x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S64x512_S64x511_0_0 : S64x512.Slices ![0, 0] S64x511
  slices_S64x512_S64x511_0_1 : S64x512.Slices ![0, 1] S64x511
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S256x2048_S256 : S256x2048.Reduces [1] S256
  shapeCasts_S256_S256x1 : S256.ShapeCasts S256x1
  broadcasts_S256x1_S256x2048 : S256x1.Broadcasts S256x2048
  inb_S256x2048_S256x2048_0_0 : ∀ a, (![0, 0] : Fin 2 → Nat) a + S256x2048.size a ≤ S256x2048.size a
  h_S256x2048 : 0 < S256x2048.numel
  bcast_S_S64x511 : S_.BroadcastsInDim S64x511 (![] : Fin 0 → Fin S64x511.rank)
  bcast_S64x511_S64x511x1_0_1 : S64x511.BroadcastsInDim S64x511x1 (![0, 1] : Fin 2 → Fin S64x511x1.rank)
  concatenates_S64x511x1_S64x511x1_S64x511x2_d2 : Shape.Concatenates [S64x511x1, S64x511x1] S64x511x2 2
  dot_S256x512_S2048x512_S256x2048_1_1_0_0_n_n_wf : DotDims.WF S256x512 S2048x512 S256x2048 [1] [1] [0] [0] [] []
  gather_S2048x2048_S64x511x2_S64x511_n_01_n_n_01_2_11_wf : GatherDims.WF S2048x2048 S64x511x2 S64x511 [] [0, 1] [] [0, 1] [] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x512.size a
  hwx0_0 : ∀ i : grid0.Coords, EltTy.bits .bf16 = 32 ∨ (Rect.block (s := S2048x512) S256x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .f32 = 32 ∨ (Rect.block (s := S2048x2048) S256x2048.size (cc0_transform_2 i) (hinb0_2 i)).WholeWords (EltTy.packing .f32)

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def gather_S2048x2048_S64x511x2_S64x511_n_01_n_n_01_2_11 : GatherDims S2048x2048 S64x511x2 S64x511 where
  offsetDims := []
  collapsedSliceDims := [0, 1]
  operandBatchingDims := []
  startIndicesBatchingDims := []
  startIndexMap := [0, 1]
  indexVectorDim := 2
  sliceSizes := ![1, 1]
  wf := gather_S2048x2048_S64x511x2_S64x511_n_01_n_n_01_2_11_wf

abbrev win0_0 : Pipeline.Window sig grid0 :=
  Pipeline.Window.ofSpec (Memref.whole main_v2) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512 : Shape := ⟨2, ![64, 512]⟩
abbrev S2048x512 : Shape := ⟨2, ![2048, 512]⟩
abbrev S64x511 : Shape := ⟨2, ![64, 511]⟩
abbrev S_ : Shape := ⟨0, ![]⟩
abbrev S64x511x1 : Shape := ⟨3, ![64, 511, 1]⟩
abbrev S64x511x512 : Shape := ⟨3, ![64, 511, 512]⟩
abbrev S64x511x2048 : Shape := ⟨3, ![64, 511, 2048]⟩
abbrev S64x511x1x1 : Shape := ⟨4, ![64, 511, 1, 1]⟩
abbrev S1 : Shape := ⟨1, ![1]⟩
abbrev S1x1x1x1 : Shape := ⟨4, ![1, 1, 1, 1]⟩

abbrev nBuf : Space → Nat
  | .hbm => 54
  | .vmem => 0
  | .smem => 0
  | _ => 0

abbrev bufTy : (tb : Table) → Fin (tcTables nBuf tb) → BufTy
  | .hbm, ⟨0, _⟩ => ⟨S64x512, .i32⟩
  | .hbm, ⟨1, _⟩ => ⟨S2048x512, .f32⟩
  | .hbm, ⟨2, _⟩ => ⟨S2048x512, .f32⟩
  | .hbm, ⟨3, _⟩ => ⟨S64x511, .i32⟩
  | .hbm, ⟨4, _⟩ => ⟨S64x511, .i32⟩
  | .hbm, ⟨5, _⟩ => ⟨S_, .i32⟩
  | .hbm, ⟨6, _⟩ => ⟨S64x511, .i32⟩
  | .hbm, ⟨7, _⟩ => ⟨S64x511, .i1⟩
  | .hbm, ⟨8, _⟩ => ⟨S_, .i32⟩
  | .hbm, ⟨9, _⟩ => ⟨S64x511, .i32⟩
  | .hbm, ⟨10, _⟩ => ⟨S64x511, .i32⟩
  | .hbm, ⟨11, _⟩ => ⟨S64x511, .i32⟩
  | .hbm, ⟨12, _⟩ => ⟨S64x511x1, .i32⟩
  | .hbm, ⟨13, _⟩ => ⟨S64x511x512, .f32⟩
  | .hbm, ⟨14, _⟩ => ⟨S64x511x2048, .f32⟩
  | .hbm, ⟨15, _⟩ => ⟨S_, .f32⟩
  | .hbm, ⟨16, _⟩ => ⟨S64x511, .f32⟩
  | .hbm, ⟨17, _⟩ => ⟨S_, .f32⟩
  | .hbm, ⟨18, _⟩ => ⟨S64x511, .f32⟩
  | .hbm, ⟨19, _⟩ => ⟨S64x511, .f32⟩
  | .hbm, ⟨20, _⟩ => ⟨S64x511x1, .f32⟩
  | .hbm, ⟨21, _⟩ => ⟨S64x511x2048, .f32⟩
  | .hbm, ⟨22, _⟩ => ⟨S64x511x2048, .f32⟩
  | .hbm, ⟨23, _⟩ => ⟨S64x511x2048, .f32⟩
  | .hbm, ⟨24, _⟩ => ⟨S_, .f32⟩
  | .hbm, ⟨25, _⟩ => ⟨S64x511, .f32⟩
  | .hbm, ⟨26, _⟩ => ⟨S64x511x1, .f32⟩
  | .hbm, ⟨27, _⟩ => ⟨S64x511x1, .f32⟩
  | .hbm, ⟨28, _⟩ => ⟨S64x511x2048, .f32⟩
  | .hbm, ⟨29, _⟩ => ⟨S64x511x2048, .f32⟩
  | .hbm, ⟨30, _⟩ => ⟨S64x511x1, .i32⟩
  | .hbm, ⟨31, _⟩ => ⟨S_, .i32⟩
  | .hbm, ⟨32, _⟩ => ⟨S64x511x1, .i32⟩
  | .hbm, ⟨33, _⟩ => ⟨S64x511x1, .i1⟩
  | .hbm, ⟨34, _⟩ => ⟨S_, .i32⟩
  | .hbm, ⟨35, _⟩ => ⟨S64x511x1, .i32⟩
  | .hbm, ⟨36, _⟩ => ⟨S64x511x1, .i32⟩
  | .hbm, ⟨37, _⟩ => ⟨S64x511x1, .i32⟩
  | .hbm, ⟨38, _⟩ => ⟨S64x511x1x1, .i32⟩
  | .hbm, ⟨39, _⟩ => ⟨S1, .i32⟩
  | .hbm, ⟨40, _⟩ => ⟨S_, .i32⟩
  | .hbm, ⟨41, _⟩ => ⟨S64x511x1x1, .i32⟩
  | .hbm, ⟨42, _⟩ => ⟨S64x511x1x1, .i1⟩
  | .hbm, ⟨43, _⟩ => ⟨S1x1x1x1, .i32⟩
  | .hbm, ⟨44, _⟩ => ⟨S64x511x1x1, .i32⟩
  | .hbm, ⟨45, _⟩ => ⟨S64x511x1x1, .i1⟩
  | .hbm, ⟨46, _⟩ => ⟨S64x511x1x1, .i1⟩
  | .hbm, ⟨47, _⟩ => ⟨S_, .i1⟩
  | .hbm, ⟨48, _⟩ => ⟨S64x511x1, .i1⟩
  | .hbm, ⟨49, _⟩ => ⟨S64x511x1, .f32⟩
  | .hbm, ⟨50, _⟩ => ⟨S_, .f32⟩
  | .hbm, ⟨51, _⟩ => ⟨S64x511x1, .f32⟩
  | .hbm, ⟨52, _⟩ => ⟨S64x511x1, .f32⟩
  | .hbm, ⟨53, _⟩ => ⟨S64x511, .f32⟩
  | _, _ => ⟨S64x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_call0_cst_0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_cst_1 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_v10 : Ref sig .tc := ⟨.hbm, 29, rfl⟩
abbrev main_v11 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v12 : Ref sig .tc := ⟨.hbm, 52, rfl⟩
abbrev main_v13 : Ref sig .tc := ⟨.hbm, 53, rfl⟩

abbrev nD : Nat := 1
abbrev τ : Topo := Topo.v7x

variable {F : FTy → Type} [FloatOps F]

class Facts₀ : Prop where
  slices_S64x512_S64x511_0_0 : S64x512.Slices ![0, 0] S64x511
  slices_S64x512_S64x511_0_1 : S64x512.Slices ![0, 1] S64x511
  bcast_S_S64x511 : S_.BroadcastsInDim S64x511 (![] : Fin 0 → Fin S64x511.rank)
  bcast_S64x511_S64x511x1_0_1 : S64x511.BroadcastsInDim S64x511x1 (![0, 1] : Fin 2 → Fin S64x511x1.rank)
  reducesTo_S64x511x2048_S64x511_d2 : S64x511x2048.ReducesTo [2] S64x511
  h_S_ : 0 < S_.numel
  bcast_S64x511x1_S64x511x2048_0_1_2 : S64x511x1.BroadcastsInDim S64x511x2048 (![0, 1, 2] : Fin 3 → Fin S64x511x2048.rank)
  bcast_S_S64x511x1 : S_.BroadcastsInDim S64x511x1 (![] : Fin 0 → Fin S64x511x1.rank)
  shapeCasts_S64x511x1_S64x511x1x1 : S64x511x1.ShapeCasts S64x511x1x1
  bcast_S_S64x511x1x1 : S_.BroadcastsInDim S64x511x1x1 (![] : Fin 0 → Fin S64x511x1x1.rank)
  bcast_S1_S1x1x1x1_3 : S1.BroadcastsInDim S1x1x1x1 (![3] : Fin 1 → Fin S1x1x1x1.rank)
  bcast_S1x1x1x1_S64x511x1x1_0_1_2_3 : S1x1x1x1.BroadcastsInDim S64x511x1x1 (![0, 1, 2, 3] : Fin 4 → Fin S64x511x1x1.rank)
  reducesTo_S64x511x1x1_S64x511x1_d3 : S64x511x1x1.ReducesTo [3] S64x511x1
  shapeCasts_S64x511x1_S64x511 : S64x511x1.ShapeCasts S64x511
  gather_S2048x512_S64x511x1_S64x511x512_2_0_n_n_0_2_1512_wf : GatherDims.WF S2048x512 S64x511x1 S64x511x512 [2] [0] [] [0] [] 2 ![1, 512]
  dot_S64x511x512_S2048x512_S64x511x2048_2_1_01_0_n_n_wf : DotDims.WF S64x511x512 S2048x512 S64x511x2048 [2] [1] [0, 1] [0] [] []
  gather_S64x511x2048_S64x511x1x1_S64x511x1_n_2_01_01_2_3_111_wf : GatherDims.WF S64x511x2048 S64x511x1x1 S64x511x1 [] [2] [0, 1] [2] [0, 1] 3 ![1, 1, 1]

variable [Facts₀]

def gather_S2048x512_S64x511x1_S64x511x512_2_0_n_n_0_2_1512 : GatherDims S2048x512 S64x511x1 S64x511x512 where
  offsetDims := [2]
  collapsedSliceDims := [0]
  operandBatchingDims := []
  startIndicesBatchingDims := []
  startIndexMap := [0]
  indexVectorDim := 2
  sliceSizes := ![1, 512]
  wf := gather_S2048x512_S64x511x1_S64x511x512_2_0_n_n_0_2_1512_wf
def dot_S64x511x512_S2048x512_S64x511x2048_2_1_01_0_n_n : DotDims S64x511x512 S2048x512 S64x511x2048 where
  lhsContracting := [2]
  rhsContracting := [1]
  lhsNonContracting := [0, 1]
  rhsNonContracting := [0]
  lhsBatch := []
  rhsBatch := []
  wf := dot_S64x511x512_S2048x512_S64x511x2048_2_1_01_0_n_n_wf
def gather_S64x511x2048_S64x511x1x1_S64x511x1_n_2_01_01_2_3_111 : GatherDims S64x511x2048 S64x511x1x1 S64x511x1 where
  offsetDims := []
  collapsedSliceDims := [2]
  operandBatchingDims := [0, 1]
  startIndicesBatchingDims := [0, 1]
  startIndexMap := [2]
  indexVectorDim := 3
  sliceSizes := ![1, 1, 1]
  wf := gather_S64x511x2048_S64x511x1x1_S64x511x1_n_2_01_01_2_3_111_wf

class Facts : Prop extends Facts₀ where

variable [Facts]
-- ==== Proof.LogSoftmax.lean ====
/-
  The mathematics both programs compute, stated once over plain index types.

  For a source row `s` (512 features) and the target table `T` (2048 rows of 512 features) the SCORES of the row are
  the 2048 scalar products `z l = ∑ k, s k · T l k`, and the LOG-SOFTMAX of a score row is
  `(z l − M) − log (∑ l', exp (z l' − M))` with `M` the row's largest score. On the extended reals the sums and the
  maximum are folds of commutative, associative operations, so neither the order of the scalar product nor the order
  of the two reductions matters: both programs spell exactly this term.
-/
import Idealize.ShloMosaic.PureOps.Ideal
import Idealize.ShloMosaic.PureOps.Ideal.Laws

noncomputable section

namespace Cert.LogSoftmax

open Idealize.ShloMosaic

/-- The pattern of −∞ that both reductions of the maximum start from. -/
abbrev negInf : EReal := Ideal.ofBits .f32 0xFF800000#32

/-- The scores of one source row against every target row. -/
def scores (s : Fin 512 → EReal) (T : Fin 2048 → Fin 512 → EReal) (l : Fin 2048) : EReal :=
  ∑ k : Fin 512, s k * T l k

/-- The largest entry of a score row: the fold of `max` from −∞ over the row. -/
def rowMax (z : Fin 2048 → EReal) : EReal :=
  (Finset.univ : Finset (Fin 2048)).fold max negInf z

/-- The log-softmax of a score row at class `l`. -/
def logSoftmax (z : Fin 2048 → EReal) (l : Fin 2048) : EReal :=
  (z l - rowMax z) - Ideal.log (∑ l' : Fin 2048, Ideal.exp (z l' - rowMax z))

/-- Taking the maximum with −∞ once more changes nothing: the fold already starts there. -/
theorem max_negInf_rowMax (z : Fin 2048 → EReal) : max negInf (rowMax z) = rowMax z :=
  max_eq_right ((Finset.le_fold_max _).mpr (Or.inl le_rfl))

end Cert.LogSoftmax

end
-- ==== Proof.LibColumn.lean ====
/-
  The keepdims COLUMN of a row reduction, read at an index.

  A vector of `a` row results cast to the column `[a, 1]`, and that column broadcast along the rows of an `[a, b]`
  array: at `(p, c)` the broadcast column holds row `p`'s result, whatever the column `c`.
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.KernelPayload.lean ====
/-
  What the kernel's body stores, read at an index.

  The body loads a tile of 256 source rows and the whole target table, multiplies them on the matrix unit into a zero
  accumulator, and stores the row-wise log-softmax of the products. At row `p` and class `q` of the tile the stored
  value is the log-softmax, at `q`, of the scores of the tile's row `p` against every target row: the matrix product is
  the sum over the 512 features, the two lane reductions are the row's maximum and the row's sum of exponentials, and the
  keepdims casts and broadcasts carry a row's result to every class of that row.
-/
import proofs.«413635_j90718299226738_3_alg».proof.Proof.Gen.KernelIdeal.Skeleton
import proofs.«413635_j90718299226738_3_alg».proof.Proof.LogSoftmax
import proofs.«413635_j90718299226738_3_alg».proof.Proof.LibColumn
import Idealize.ShloMosaic.Lib.ValueIdx
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.LogSoftmax Cert.LibColumn

/-! ## The matrix product at an index -/

theorem lhs_0 (i : S256x2048.Idx) (q : dot_S256x512_S2048x512_S256x2048_1_1_0_0_n_n.contr.Idx) :
    (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide), dif_pos (show (0 : Fin S256x512.rank) ∈ dot_S256x512_S2048x512_S256x2048_1_1_0_0_n_n.lhsNonContracting by decide)]
  rfl
theorem lhs_1 (i : S256x2048.Idx) (q : dot_S256x512_S2048x512_S256x2048_1_1_0_0_n_n.contr.Idx) :
    (dot_S256x512_S2048x512_S256x2048_1_1_0_0_n_n.lhsIdx i q 1).val = (q ⟨0, by decide⟩).val :=
  dot_S256x512_S2048x512_S256x2048_1_1_0_0_n_n.lhsIdx_val_of_single rfl i q
theorem rhs_0 (i : S256x2048.Idx) (q : dot_S256x512_S2048x512_S256x2048_1_1_0_0_n_n.contr.Idx) :
    (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide), dif_pos (show (0 : Fin S2048x512.rank) ∈ dot_S256x512_S2048x512_S256x2048_1_1_0_0_n_n.rhsNonContracting by decide)]
  rfl
theorem rhs_1 (i : S256x2048.Idx) (q : dot_S256x512_S2048x512_S256x2048_1_1_0_0_n_n.contr.Idx) :
    (dot_S256x512_S2048x512_S256x2048_1_1_0_0_n_n.rhsIdx i q 1).val = (q ⟨0, by decide⟩).val :=
  dot_S256x512_S2048x512_S256x2048_1_1_0_0_n_n.rhsIdx_val_of_single rfl i q

/-- The product of a tile of source rows with the transposed target table, into a zero accumulator: at row `p` and
    class `l` the scalar product of the tile's row `p` with target row `l`. -/
theorem matmul_at (x0 : FVec Ideal S256x512 .bf16) (x1 : FVec Ideal S2048x512 .bf16) (p : Fin 256) (l : Fin 2048) :
    matmul dot_S256x512_S2048x512_S256x2048_1_1_0_0_n_n none x0 x1 (constant S256x2048 .f32 0x00000000#32) (ix2 p l)
      = ∑ k : Fin 512, x0 (ix2 p k) * x1 (ix2 l k) := by
  simp only [matmul]
  rw [Ideal.matmul_constant_zero_apply, ← Equiv.sum_comp (contrEquiv1 dot_S256x512_S2048x512_S256x2048_1_1_0_0_n_n 512 rfl rfl).symm]
  refine Finset.sum_congr rfl fun k _ => ?_
  have hk := contrEquiv1_symm_val dot_S256x512_S2048x512_S256x2048_1_1_0_0_n_n 512 rfl rfl k
  have el : dot_S256x512_S2048x512_S256x2048_1_1_0_0_n_n.lhsIdx (ix2 p l) ((contrEquiv1 dot_S256x512_S2048x512_S256x2048_1_1_0_0_n_n 512 rfl rfl).symm k) = ix2 p k := funext fun a => Fin.ext (by
    match a with
    | ⟨0, _⟩ => exact lhs_0 _ _
    | ⟨1, _⟩ => exact (lhs_1 _ _).trans hk)
  have er : dot_S256x512_S2048x512_S256x2048_1_1_0_0_n_n.rhsIdx (ix2 p l) ((contrEquiv1 dot_S256x512_S2048x512_S256x2048_1_1_0_0_n_n 512 rfl rfl).symm k) = ix2 l k := funext fun a => Fin.ext (by
    match a with
    | ⟨0, _⟩ => exact rhs_0 _ _
    | ⟨1, _⟩ => exact (rhs_1 _ _).trans hk)
  rw [el, er]

/-! ## The two lane reductions at a row -/

/-- The lane maximum of a `[256, 2048]` array at row `p`: the fold of `max` from −∞ over the row. -/
theorem rowmax_at (Z : FVec Ideal S256x2048 .f32) (hφ : FKind.Formats .f32)
    (hacc : (0xFF800000#32 : BitVec 32) = 0xFF800000#32) (p : Fin 256) :
    multiReduction .maximumf [1] S256 Z 0xFF800000#32 reduces_S256x2048_S256 hφ hacc (ix1 p)
      = rowMax fun l => Z (ix2 p l) := by
  refine (Ideal.multiReduction_maximumf_single Z 0xFF800000#32 reduces_S256x2048_S256 hφ hacc (ix1 p)).trans ?_
  unfold rowMax
  refine congrArg (fun f : Fin 2048 → EReal => (Finset.univ : Finset (Fin 2048)).fold max negInf f) (funext fun k => ?_)
  exact congrArg Z (funext fun a => Fin.ext (by match a with | ⟨0, _⟩ => rfl | ⟨1, _⟩ => rfl))

/-- The lane sum of a `[256, 2048]` array at row `p`: the sum over the row. -/
theorem rowsum_at (Z : FVec Ideal S256x2048 .f32) (hφ : FKind.Formats .f32)
    (hacc : (0x00000000#32 : BitVec 32) = 0x00000000#32) (p : Fin 256) :
    multiReduction .add [1] S256 Z 0x00000000#32 reduces_S256x2048_S256 hφ hacc (ix1 p)
      = ∑ l : Fin 2048, Z (ix2 p l) := by
  refine (Ideal.multiReduction_add_single Z 0x00000000#32 reduces_S256x2048_S256 hφ hacc (ix1 p)).trans ?_
  refine Finset.sum_congr rfl fun k _ => ?_
  exact congrArg Z (funext fun a => Fin.ext (by match a with | ⟨0, _⟩ => rfl | ⟨1, _⟩ => rfl))

/-! ## The log-softmax of a tile of score rows -/

/-- The kernel's log-softmax of a `[256, 2048]` array of scores, read at `(p, q)`: the log-softmax of row `p` at
    class `q`. The row's maximum and the logarithm of the row's sum of exponentials each pass through a keepdims column
    broadcast back along the row. -/
theorem lsm_at (Z : FVec Ideal S256x2048 .f32) (hφ : FKind.Formats .f32)
    (hm : (0xFF800000#32 : BitVec 32) = 0xFF800000#32) (ha : (0x00000000#32 : BitVec 32) = 0x00000000#32)
    (p : Fin 256) (q : Fin 2048) :
    subf
      (subf Z (broadcastTo S256x2048 (shapeCast S256x1
        (multiReduction .maximumf [1] S256 Z 0xFF800000#32 reduces_S256x2048_S256 hφ hm) shapeCasts_S256_S256x1)
        broadcasts_S256x1_S256x2048))
      (broadcastTo S256x2048 (log (shapeCast S256x1
        (multiReduction .add [1] S256
          (exp (subf Z (broadcastTo S256x2048 (shapeCast S256x1
            (multiReduction .maximumf [1] S256 Z 0xFF800000#32 reduces_S256x2048_S256 hφ hm) shapeCasts_S256_S256x1)
            broadcasts_S256x1_S256x2048)))
          0x00000000#32 reduces_S256x2048_S256 hφ ha) shapeCasts_S256_S256x1))
        broadcasts_S256x1_S256x2048)
      (ix2 p q)
      = logSoftmax (fun l => Z (ix2 p l)) q := by
  -- the broadcast column of row maxima, at any class of row p, is row p's maximum
  have hM : ∀ l : Fin 2048, (broadcastTo S256x2048 (shapeCast S256x1
        (multiReduction .maximumf [1] S256 Z 0xFF800000#32 reduces_S256x2048_S256 hφ hm) shapeCasts_S256_S256x1)
        broadcasts_S256x1_S256x2048) (ix2 p l) = rowMax fun l => Z (ix2 p l) := fun l =>
    (broadcastTo_a1_ab_apply _ _ p l).trans ((shapeCast_a_a1_apply _ _ p 0).trans (rowmax_at Z hφ hm p))
  -- the broadcast column of logarithms of row sums, at class q of row p
  have hS := (broadcastTo_a1_ab_apply (log (shapeCast S256x1
        (multiReduction .add [1] S256
          (exp (subf Z (broadcastTo S256x2048 (shapeCast S256x1
            (multiReduction .maximumf [1] S256 Z 0xFF800000#32 reduces_S256x2048_S256 hφ hm) shapeCasts_S256_S256x1)
            broadcasts_S256x1_S256x2048)))
          0x00000000#32 reduces_S256x2048_S256 hφ ha) shapeCasts_S256_S256x1)) broadcasts_S256x1_S256x2048 p q).trans
    (congrArg Ideal.log ((shapeCast_a_a1_apply _ _ p 0).trans (rowsum_at _ hφ ha p)))
  unfold logSoftmax
  refine (congrArg₂ (· - ·) (congrArg₂ (· - ·) rfl (hM q)) hS).trans ?_
  refine congrArg (fun s => (Z (ix2 p q) - rowMax fun l => Z (ix2 p l)) - Ideal.log s) (Finset.sum_congr rfl fun l _ => ?_)
  exact congrArg Ideal.exp (congrArg₂ (· - ·) rfl (hM l))

/-! ## The stored value -/

/-- THE PAYLOAD AT `(p, q)`: the log-softmax at class `q` of the scores of the tile's source row `p`. -/
theorem pay_at (x0 : Vec Ideal S256x512 .bf16) (x1 : Vec Ideal S2048x512 .bf16) (p : Fin 256) (q : Fin 2048) :
    k0_pay1 (F := Ideal) x0 x1 (ix2 p q)
      = logSoftmax (scores (fun k => x0 (ix2 p k)) (fun l k => x1 (ix2 l k))) q := by
  unfold k0_pay1
  rw [shapeCast_self, shapeCast_self]
  refine (lsm_at _ _ _ _ p q).trans ?_
  unfold scores
  exact congrArg (fun z : Fin 2048 → EReal => logSoftmax z q) (funext fun l => matmul_at x0 x1 p l)

end Cert.KernelIdeal.Payload

end
-- ==== Proof.KernelTable.lean ====
/-
  The table the kernel's region leaves in its output array.

  The region walks eight tiles of 256 source rows. At tile `t` the body stores, for the tile's row `p` and every class
  `q`, the log-softmax at `q` of the scores of source row `256·t + p` against the whole target table; the tile's block is
  written back to rows `256·t … 256·t + 255` of the output array. The eight blocks tile the array, so after the region the
  array is the whole table: entry `(r, l)` is the log-softmax at class `l` of the scores of source row `r`.
-/
import proofs.«413635_j90718299226738_3_alg».proof.Proof.Gen.KernelIdeal.Frame
import proofs.«413635_j90718299226738_3_alg».proof.Proof.KernelPayload
import Idealize.ShloMosaic.Lib.Pipeline.Value

set_option maxRecDepth 16384

noncomputable section

namespace Cert.KernelIdeal.Table

open Idealize.ShloMosaic Idealize.ShloMosaic.TcCoe Idealize.ShloMosaic.ValueIdx Idealize.SL.Sem
open Cert.KernelIdeal Cert.KernelIdeal.Gen Cert.LogSoftmax
open Idealize.ShloMosaic.Pipeline (Dat)

variable (m : (ℓ : Loc nD τ sig) → Buf (Elt Ideal) ℓ)

/-- The table of log-probabilities of a source table `S` against a target table `T`: at `(r, l)` the log-softmax at
    class `l` of the scores of source row `r`. -/
def table (S T : S2048x512.Idx → EReal) : S2048x2048.Idx → EReal := fun i =>
  logSoftmax (scores (fun k => S (ix2 (⟨(i 0).val, idx2_lt0 i⟩ : Fin 2048) k)) (fun l k => T (ix2 l k)))
    (⟨(i 1).val, idx2_lt1 i⟩ : Fin 2048)

theorem hz : (![0, 0] : Fin 2 → Nat) = fun _ => 0 := funext fun a => by fin_cases a <;> rfl

/-- The printed index maps, decided over the eight points: the source tile and the output block sit at block row `t`,
    the target table at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The source row that tile `t`'s row `p` is. -/
def rowOf (t : Fin cfg0.N) (p : Fin 256) : Fin 2048 :=
  ⟨t.val * 256 + p.val, by
    have ht : t.val < 8 := lt_of_lt_of_eq t.isLt N_0
    have hp := p.isLt
    omega⟩

/-- The source tile at point `t`, at `(p, k)`: the source table as the region finds it, at row `256·t + p`. -/
theorem blk0_at (c : Dev nD) (t : Fin cfg0.N) (p : Fin 256) (k : Fin 512) :
    iblk m c 0 t (ix2 p k) = V m c main_v2 (ix2 (rowOf t p) k) := by
  show V m c main_v2 (((cfg0.win 0).blk t).view.emb (ix2 p k)) = V m c main_v2 (ix2 (rowOf t p) k)
  obtain ⟨e0, e1, -⟩ := idx_facts t
  refine congrArg (V m c main_v2) (funext fun a => Fin.ext ?_)
  match a with
  | ⟨0, _⟩ => show win0_0.index t (0 : Fin 2) * 256 + 1 * p.val = t.val * 256 + p.val; omega
  | ⟨1, _⟩ => show win0_0.index t (1 : Fin 2) * 512 + 1 * k.val = k.val; omega

/-- The target window at any point, at `(l, k)`: the target table as the region finds it. -/
theorem blk1_at (c : Dev nD) (t : Fin cfg0.N) (l : Fin 2048) (k : Fin 512) :
    iblk m c 1 t (ix2 l k) = V m c main_v3 (ix2 l k) := by
  show V m c main_v3 (((cfg0.win 1).blk t).view.emb (ix2 l k)) = V m c main_v3 (ix2 l k)
  obtain ⟨-, -, e2, e3, -⟩ := idx_facts t
  refine congrArg (V m c main_v3) (funext fun a => Fin.ext ?_)
  match a with
  | ⟨0, _⟩ => show win0_1.index t (0 : Fin 2) * 2048 + 1 * l.val = l.val; omega
  | ⟨1, _⟩ => show win0_1.index t (1 : Fin 2) * 512 + 1 * k.val = k.val; omega

/-- WHAT POINT `t` WRITES BACK is block `t` of the table of the two arrays as the region finds them. -/
theorem flushed_eq (c : Dev nD) (t : Fin cfg0.N) :
    (dats m 0 c).flushed 2 t
      = ((cfg0.win 2).blk t).view.read (Elt Ideal) (table (V m c main_v2) (V m c main_v3)) := by
  show (cfg0.win 2).cut (grid0.coords t) ((dats m 0 c).after 2 t) = _
  rw [after0_2]
  unfold out0_2
  rw [View.canon_unit_zero hz]
  simp only [View.ld_unit_zero (S := S256x512) hz, View.ld_unit_zero (S := S2048x512) hz]
  funext j
  obtain ⟨p, q, rfl⟩ : ∃ (p : Fin 256) (q : Fin 2048), j = ix2 p q := ⟨j 0, j 1, eq_ix2 j⟩
  refine (Cert.KernelIdeal.Payload.pay_at (iblk m c 0 t) (iblk m c 1 t) p q).trans ?_
  show _ = table (V m c main_v2) (V m c main_v3) (((cfg0.win 2).blk t).view.emb (ix2 p q))
  obtain ⟨-, -, -, -, e4, e5⟩ := idx_facts t
  have hemb : ((cfg0.win 2).blk t).view.emb (ix2 p q) = ix2 (rowOf t p) q := by
    funext a; apply Fin.ext
    match a with
    | ⟨0, _⟩ => show win0_2.index t (0 : Fin 2) * 256 + 1 * p.val = t.val * 256 + p.val; omega
    | ⟨1, _⟩ => show win0_2.index t (1 : Fin 2) * 2048 + 1 * q.val = q.val; omega
  rw [hemb]
  show _ = logSoftmax (scores (fun k => V m c main_v2 (ix2 (rowOf t p) k)) (fun l k => V m c main_v3 (ix2 l k))) q
  refine congrArg (fun z : Fin 2048 → EReal => logSoftmax z q) (funext fun l => ?_)
  unfold scores
  exact Finset.sum_congr rfl fun k _ => congrArg₂ (· * ·) (blk0_at m c t p k) (blk1_at m c t l k)

/-- An index of the table is in point `t`'s block iff each coordinate is in the block's range on its axis. -/
theorem mem_blk (t : Fin cfg0.N) (i : S2048x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v4).slice (win0_2.rect t)).set ↔ _
  rw [View.set_slice_whole, Rect.mem_set_unit]
  exact Iff.rfl

/-- Every row of the table lies in the block of the tile that holds it. -/
theorem cover (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  have hlt : (i 0).val / 256 < cfg0.N := lt_of_lt_of_eq (show (i 0).val / 256 < 8 by omega) N_0.symm
  refine ⟨⟨(i 0).val / 256, hlt⟩, flush0_2 _, ?_⟩
  rw [mem_blk]
  obtain ⟨-, -, -, -, e4, e5⟩ := idx_facts ⟨(i 0).val / 256, hlt⟩
  intro a
  match a with
  | ⟨0, _⟩ =>
    show win0_2.index _ (0 : Fin 2) * 256 ≤ (i 0).val ∧ (i 0).val < win0_2.index _ (0 : Fin 2) * 256 + 256
    rw [e4]; show (i 0).val / 256 * 256 ≤ (i 0).val ∧ (i 0).val < (i 0).val / 256 * 256 + 256; omega
  | ⟨1, _⟩ =>
    show win0_2.index _ (1 : Fin 2) * 2048 ≤ (i 1).val ∧ (i 1).val < win0_2.index _ (1 : Fin 2) * 2048 + 2048
    rw [e5]; omega

/-- THE ARRAY after the region: the table of the source and target arrays as the region finds them. -/
theorem final (c : Dev nD) : (dats m 0 c).arrAt 2 cfg0.N = table (V m c main_v2) (V m c main_v3) :=
  (dats m 0 c).arrAt_eq_of_cover 2 _ (fun t _ => flushed_eq m c t) cover

end Cert.KernelIdeal.Table

end
-- ==== Proof.KernelRun.lean ====
/-
  The kernel program's run, read back.

  Around its one region the program slices the label array into source labels (columns 0 … 510) and target labels
  (columns 1 … 511) and narrows the two embedding tables (a change of format: the identity on the extended reals);
  after the region it wraps negative labels by 2048, pairs the two label arrays on a trailing axis and gathers one
  table entry per position. The frame run names every array after the region; here the result buffer is read as that
  gather of the region's table (KernelTable.lean) at the paired labels.
-/
import proofs.«413635_j90718299226738_3_alg».proof.Proof.KernelTable
import Idealize.ShloMosaic.Lib.StableHlo.Run

set_option maxRecDepth 16384

noncomputable section

namespace Cert.KernelIdeal.Run

open Idealize.ShloMosaic Idealize.ShloMosaic.TcCoe Idealize.ShloMosaic.ValueIdx Idealize.SL.Sem Idealize.ShloMosaic.StableHlo
open Cert.KernelIdeal Cert.KernelIdeal.Gen Cert.KernelIdeal.Table Cert.LogSoftmax
open Idealize.ShloMosaic.Pipeline (Dat)

variable (m : (ℓ : Loc nD τ sig) → Buf (Elt Ideal) ℓ) (ρ : Dev nD → PrngReg)

/-- A label with a negative value wrapped by 2048 (jnp's indexing of an axis of extent 2048), over a whole array. -/
def wrap (l : IVec S64x511 32) : IVec S64x511 32 :=
  select (cmpi .slt l (broadcastInDim S64x511 ![] bcast_S_S64x511 (constantI S_ 32 0#32)))
    (addi l (broadcastInDim S64x511 ![] bcast_S_S64x511 (constantI S_ 32 2048#32))) l

/-- The two wrapped label arrays paired on a trailing axis: the start indices of the final gather. -/
def pairIdx (l0 l1 : IVec S64x511 32) : IVec S64x511x2 32 :=
  concatenate S64x511x2 2
    [⟨S64x511x1, broadcastInDim S64x511x1 ![0, 1] bcast_S64x511_S64x511x1_0_1 (wrap l0)⟩,
     ⟨S64x511x1, broadcastInDim S64x511x1 ![0, 1] bcast_S64x511_S64x511x1_0_1 (wrap l1)⟩]
    concatenates_S64x511x1_S64x511x1_S64x511x2_d2

/-- The lines after the region, as one function of the region's table and the two label slices. -/
def pick (tbl : S2048x2048.Idx → EReal) (l0 l1 : IVec S64x511 32) : S64x511.Idx → EReal :=
  Host.gather gather_S2048x2048_S64x511x2_S64x511_n_01_n_n_01_2_11 tbl (pairIdx l0 l1)

/-- The program's result as a function of its three arguments. -/
def result (x0 : IVec S64x512 32) (x1 x2 : S2048x512.Idx → EReal) : S64x511.Idx → EReal :=
  pick (table x1 x2) (extractStridedSlice S64x511 ![0, 0] x0 slices_S64x512_S64x511_0_0)
    (extractStridedSlice S64x511 ![0, 1] x0 slices_S64x512_S64x511_0_1)

/-- The source labels as the region finds them: the slice of the label argument. -/
theorem V_main_v0 (c : Dev nD) :
    (V m c main_v0 : IVec S64x511 32)
      = extractStridedSlice S64x511 ![0, 0] (m ((c : Thread nD τ).loc main_arg0)) slices_S64x512_S64x511_0_0 := by
  dsimp only [Gen.V, Gen.V0]
  simp only [Gen.hostOps0, List.flatten_cons, List.flatten_nil, List.append_nil, List.cons_append, List.nil_append]
  after_results

/-- The target labels as the region finds them. -/
theorem V_main_v1 (c : Dev nD) :
    (V m c main_v1 : IVec S64x511 32)
      = extractStridedSlice S64x511 ![0, 1] (m ((c : Thread nD τ).loc main_arg0)) slices_S64x512_S64x511_0_1 := by
  dsimp only [Gen.V, Gen.V0]
  simp only [Gen.hostOps0, List.flatten_cons, List.flatten_nil, List.append_nil, List.cons_append, List.nil_append]
  after_results

/-- The narrowed source table as the region finds it is the source argument: a change of format is the identity. -/
theorem V_main_v2 (c : Dev nD) :
    (V m c main_v2 : S2048x512.Idx → EReal) = m ((c : Thread nD τ).loc main_arg1) := by
  dsimp only [Gen.V, Gen.V0]
  simp only [Gen.hostOps0, List.flatten_cons, List.flatten_nil, List.append_nil, List.cons_append, List.nil_append]
  after_results
  rfl

/-- The narrowed target table likewise. -/
theorem V_main_v3 (c : Dev nD) :
    (V m c main_v3 : S2048x512.Idx → EReal) = m ((c : Thread nD τ).loc main_arg2) := by
  dsimp only [Gen.V, Gen.V0]
  simp only [Gen.hostOps0, List.flatten_cons, List.flatten_nil, List.append_nil, List.cons_append, List.nil_append]
  after_results
  rfl

/-- The lines after the region that build the two wrapped label arrays: the first 16. -/
abbrev tailA : List (HloOp τ sig (Elt Ideal)) := (hostOps1 (F := Ideal)).take 16
/-- The pairing and the gather: the last 2. -/
abbrev tailB : List (HloOp τ sig (Elt Ideal)) := (hostOps1 (F := Ideal)).drop 16

theorem tail_split : hostOps1 (F := Ideal) = tailA ++ tailB := (List.take_append_drop 16 _).symm

/-- After the index lines the first start-index buffer holds the wrapped source labels, as a column. -/
theorem tailA_v15 (W : Valuation τ sig (Elt Ideal)) :
    (after tailA W (Proc.devRef .tc main_v15) : IVec S64x511x1 32)
      = broadcastInDim S64x511x1 ![0, 1] bcast_S64x511_S64x511x1_0_1 (wrap (W (Proc.devRef .tc main_v0))) := by
  simp only [tailA, hostOps1, List.take_succ_cons, List.take_zero]
  after_results_simp
  rfl

/-- … the second the wrapped target labels. -/
theorem tailA_v16 (W : Valuation τ sig (Elt Ideal)) :
    (after tailA W (Proc.devRef .tc main_v16) : IVec S64x511x1 32)
      = broadcastInDim S64x511x1 ![0, 1] bcast_S64x511_S64x511x1_0_1 (wrap (W (Proc.devRef .tc main_v1))) := by
  simp only [tailA, hostOps1, List.take_succ_cons, List.take_zero]
  after_results_simp
  rfl

/-- The index lines leave the region's table where it is. -/
theorem tailA_v4 (W : Valuation τ sig (Elt Ideal)) :
    after tailA W (Proc.devRef .tc main_v4) = W (Proc.devRef .tc main_v4) := by
  simp only [tailA, hostOps1, List.take_succ_cons, List.take_zero]
  after_results_simp

/-- The last two lines: the gather of the table at the paired start indices. -/
theorem tailB_v18 (W : Valuation τ sig (Elt Ideal)) :
    (after tailB W (Proc.devRef .tc main_v18) : S64x511.Idx → EReal)
      = Host.gather gather_S2048x2048_S64x511x2_S64x511_n_01_n_n_01_2_11 (W (Proc.devRef .tc main_v4))
          (concatenate S64x511x2 2 [⟨S64x511x1, W (Proc.devRef .tc main_v15)⟩, ⟨S64x511x1, W (Proc.devRef .tc main_v16)⟩]
            concatenates_S64x511x1_S64x511x1_S64x511x2_d2) := by
  simp only [tailB, hostOps1, List.drop_succ_cons, List.drop_zero]
  after_results

/-- THE RESULT BUFFER after the lines that follow the region. -/
theorem tail_result (c : Dev nD) :
    Pipeline.afterTail₀ cfgs (dats m) 0 (V0 m) [hostOps1] c main_v18
      = result (m ((c : Thread nD τ).loc main_arg0)) (m ((c : Thread nD τ).loc main_arg1)) (m ((c : Thread nD τ).loc main_arg2)) := by
  unfold Pipeline.afterTail₀
  show StableHlo.after hostOps1 _ (Proc.devRef .tc main_v18) = _
  rw [tail_split, StableHlo.after_append, tailB_v18, tailA_v4, tailA_v15, tailA_v16]
  have e4 : Pipeline.withArrays (cfgs 0).spec c (V0 m c) (fun w => (dats m 0 c).arrAt w (cfgs 0).N) (Proc.devRef .tc main_v4)
      = (dats m 0 c).arrAt 2 cfg0.N := Pipeline.withArrays_arr spec0 launch0.win.arr_inj c _ _ 2
  have e0 : Pipeline.withArrays (cfgs 0).spec c (V0 m c) (fun w => (dats m 0 c).arrAt w (cfgs 0).N) (Proc.devRef .tc main_v0)
      = V m c main_v0 :=
    Pipeline.withArrays_of_ne _ c (V0 m c) _ main_v0 (by exact (by decide : ∀ w, Pipeline.arrRef spec0 w ≠ main_v0))
  have e1 : Pipeline.withArrays (cfgs 0).spec c (V0 m c) (fun w => (dats m 0 c).arrAt w (cfgs 0).N) (Proc.devRef .tc main_v1)
      = V m c main_v1 :=
    Pipeline.withArrays_of_ne _ c (V0 m c) _ main_v1 (by exact (by decide : ∀ w, Pipeline.arrRef spec0 w ≠ main_v1))
  rw [e4, e0, e1, final m c, V_main_v0, V_main_v1, V_main_v2, V_main_v3]
  rfl

/-- THE RUN, READ: every weakly fair execution of the kernel program terminates with the result buffer at `result` of
    the three arguments, and the arguments unchanged. -/
theorem run : θ_run defs (onTc (τ := τ) (main (F := Ideal))) ⟨m, fun _ => 0, ρ⟩ fun r => ∀ c : Dev nD,
      r.2.mem ((c.tc : Thread nD τ).loc main_v18)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v18 (Pipeline.mem_restRefs_of main_v18 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.LabelRange.lean ====
/-
  What the precondition says of the labels, and what follows for one label.

  The precondition's last conjunct is `jnp.all((labels >= 0) & (labels < 2048))`: every label, read as a signed word,
  lies in `[0, 2047]`, the range of the class axis both tables are indexed by. For such a word the wrap of negative
  indices (`x < 0 ? x + 2048 : x`) is the identity, and the in-bounds test of `take_along_axis`
  (`x >= 0 & x <= 2047`) is true.
-/
import proofs.«413635_j90718299226738_3_alg».proof.Proof.Gen.Pre_finite_inputs
import Idealize.ShloMosaic.Lib.ReduceAll
import Idealize.ShloMosaic.Lib.StableHlo.Predicate
import Idealize.ShloMosaic.Lib.ValueIdx

noncomputable section

namespace Cert.LabelRange

open Idealize.ShloMosaic Cert.Pre_finite_inputs

/-- A label in the class range: as a signed word, at least 0 and below 2048. -/
def InRange (x : BitVec 32) : Prop := IntOp.cmpi .sge x 0#32 = 1#1 ∧ IntOp.cmpi .slt x 2048#32 = 1#1

/-- jnp's wrap of a negative index into an axis of extent 2048. -/
def wrapWord (x : BitVec 32) : BitVec 32 := Scalar.select (IntOp.cmpi .slt x 0#32) (IntOp.addi x 2048#32) x

/-- A start index as a gather reads it: the signed value, clamped into the class axis `[0, 2047]`. -/
def clampIdx (x : BitVec 32) : Fin 2048 := ⟨min x.toInt.toNat 2047, by omega⟩

/-- Position `t` of a row pairs the label in column `t` (the source label) with the label in column `t + 1` (the target
    label). -/
def colS (t : Fin 511) : Fin 512 := ⟨t.val, by omega⟩
@[inherit_doc colS]
def colT (t : Fin 511) : Fin 512 := ⟨1 + t.val, by omega⟩

/-- A clamped start index, as the gather lemmas spell it, is `clampIdx` of the word it reads. -/
theorem clamp_eq (w w' : BitVec 32) (h : w = w') (hp : min w.toInt.toNat (2048 - 1) < 2048) :
    (⟨min w.toInt.toNat (2048 - 1), hp⟩ : Fin 2048) = clampIdx w' := by
  subst h; rfl

theorem toInt_zero : (0#32 : BitVec 32).toInt = 0 := by decide
theorem toInt_2048 : (2048#32 : BitVec 32).toInt = 2048 := by decide
theorem toInt_2047 : (2047#32 : BitVec 32).toInt = 2047 := by decide

/-- The range in signed values. -/
theorem inRange_iff (x : BitVec 32) : InRange x ↔ 0 ≤ x.toInt ∧ x.toInt < 2048 := by
  unfold InRange IntOp.cmpi
  simp only [StableHlo.Predicate.ofBool_eq_one_iff, BitVec.sle, BitVec.slt, decide_eq_true_eq, toInt_zero, toInt_2048]

/-- A label in range is not wrapped. -/
theorem wrapWord_of_inRange {x : BitVec 32} (h : InRange x) : wrapWord x = x := by
  have hx := ((inRange_iff x).1 h).1
  have hc : IntOp.cmpi .slt x 0#32 = 0#1 := by
    unfold IntOp.cmpi
    have : x.slt 0#32 = false := by
      simp only [BitVec.slt, toInt_zero, decide_eq_false_iff_not, not_lt]; exact hx
    rw [this]; rfl
  unfold wrapWord
  rw [hc]
  exact ValueIdx.select_zero _ _

/-- A label in range passes the in-bounds test of the pick. -/
theorem inBounds_of_inRange {x : BitVec 32} (h : InRange x) :
    IntOp.andi (IntOp.cmpi .sge x 0#32) (IntOp.cmpi .sle x 2047#32) = 1#1 := by
  obtain ⟨h0, h1⟩ := (inRange_iff x).1 h
  refine IntOp.andi_eq_one.2 ⟨h.1, ?_⟩
  unfold IntOp.cmpi
  simp only [StableHlo.Predicate.ofBool_eq_one_iff, BitVec.sle, decide_eq_true_eq, toInt_2047]
  omega

instance : Subsingleton S_.Idx := ⟨fun a b => funext fun d => d.elim0⟩

/-- THE PRECONDITION, DECODED for the labels: every label is in range. -/
theorem inRange_of_pre {F : FTy → Type} [FloatOps F] (L : IVec S64x512 32) (S T : FVec F S2048x512 .f32)
    (h : fn (F := F) L S T = fun _ => 1#1) (i : S64x512.Idx) : InRange (L i) := by
  have h0 := congrFun h ValueIdx.ix0
  dsimp only [fn] at h0
  obtain ⟨-, h14⟩ := IntOp.andi_eq_one.1 h0
  have hi := Host.reduce_andi_all _ _ _ _ _ h14 i
  exact IntOp.andi_eq_one.1 hi

end Cert.LabelRange

end
-- ==== Proof.LibGatherPoints.lean ====
/-
  A `stablehlo.gather` that picks single ENTRIES of a matrix, read at an index.

  What `x[i, j]` of a matrix `x : [N, M]` at two integer arrays `i, j : [A, B]` lowers to: the two index arrays stacked on a
  trailing axis of size 2, both operand axes collapsed, start_index_map `[0, 1]`, slice sizes `[1, 1]`, no offset axis.
  Result element `(a, b)` is `x` at row `idx[a, b, 0]` and column `idx[a, b, 1]`, each read as a signed integer and
  clamped into its axis, as the gather clamps every start index.
-/
import Idealize.ShloMosaic.PureOps.ShapeOps
import Idealize.ShloMosaic.Lib.ValueIdx

noncomputable section

namespace Cert.LibGatherPoints

open Idealize.ShloMosaic Idealize.ShloMosaic.ValueIdx

variable {α : Type}

/-- The dimension numbers of an entry gather with start indices `[A, B, 2]`: operand `[N, M]`, result `[A, B]`. -/
abbrev points2 (N M A B : Nat)
    (wf : GatherDims.WF ⟨2, ![N, M]⟩ ⟨3, ![A, B, 2]⟩ ⟨2, ![A, B]⟩ [] [0, 1] [] [0, 1] [] 2 ![1, 1]) :
    GatherDims ⟨2, ![N, M]⟩ ⟨3, ![A, B, 2]⟩ ⟨2, ![A, B]⟩ where
  offsetDims := []
  collapsedSliceDims := [0, 1]
  operandBatchingDims := []
  startIndicesBatchingDims := []
  startIndexMap := [0, 1]
  indexVectorDim := 2
  sliceSizes := ![1, 1]
  wf := wf

/-- THE ENTRY GATHER READ AT `(a, b)`: row `idx[a, b, 0]` and column `idx[a, b, 1]`, each signed and clamped into its axis. -/
theorem gather_points2_apply {N M A B w : Nat} (hN : 0 < N) (hM : 0 < M)
    (wf : GatherDims.WF ⟨2, ![N, M]⟩ ⟨3, ![A, B, 2]⟩ ⟨2, ![A, B]⟩ [] [0, 1] [] [0, 1] [] 2 ![1, 1])
    (x : (⟨2, ![N, M]⟩ : Shape).Idx → α) (idx : IVec ⟨3, ![A, B, 2]⟩ w) (a : Fin A) (b : Fin B) :
    Host.gather (points2 N M A B wf) x idx (ix2 a b)
      = x (ix2 ⟨min (idx (ix3 a b (0 : Fin 2))).toInt.toNat (N - 1), by omega⟩
            ⟨min (idx (ix3 a b (1 : Fin 2))).toInt.toNat (M - 1), by omega⟩) := by
  -- Both operand axes are collapsed and named by the start index map, and there is no batching axis: on each axis the
  -- operand index is the clamped start alone, read at the result's coordinates with the axis's component last.
  have h0 : (points2 N M A B wf).start (ix2 a b) idx 0 + (points2 N M A B wf).batchCoord (ix2 a b) 0
      + (points2 N M A B wf).offCoord (ix2 a b) 0 = min (idx (ix3 a b (0 : Fin 2))).toInt.toNat (N - 1) := by
    rw [GatherDims.batchCoord_eq_zero _ _ _ List.not_mem_nil,
      GatherDims.offCoord_eq_zero _ _ _
        (fun h => ((GatherDims.mem_sKept _ _).mp h).1 (show (0 : Fin 2) ∈ [(0 : Fin 2), 1] from by decide))]
    simp only [Nat.add_zero]
    unfold GatherDims.start
    rw [dif_pos (show (0 : Fin 2) ∈ (points2 N M A B wf).startIndexMap from (show (0 : Fin 2) ∈ [(0 : Fin 2), 1] from by decide))]
    have hsi : (points2 N M A B wf).siIdx (ix2 a b) ⟨List.idxOf (0 : Fin 2) (points2 N M A B wf).startIndexMap,
        List.idxOf_lt_length_iff.2 (show (0 : Fin 2) ∈ [(0 : Fin 2), 1] from by decide)⟩ = ix3 a b (0 : Fin 2) := by
      funext q; refine Fin.ext ?_
      match q with
      | ⟨0, _⟩ => rfl
      | ⟨1, _⟩ => rfl
      | ⟨2, _⟩ => rfl
    rw [hsi]
    rfl
  have h1 : (points2 N M A B wf).start (ix2 a b) idx 1 + (points2 N M A B wf).batchCoord (ix2 a b) 1
      + (points2 N M A B wf).offCoord (ix2 a b) 1 = min (idx (ix3 a b (1 : Fin 2))).toInt.toNat (M - 1) := by
    rw [GatherDims.batchCoord_eq_zero _ _ _ List.not_mem_nil,
      GatherDims.offCoord_eq_zero _ _ _
        (fun h => ((GatherDims.mem_sKept _ _).mp h).1 (show (1 : Fin 2) ∈ [(0 : Fin 2), 1] from by decide))]
    simp only [Nat.add_zero]
    unfold GatherDims.start
    rw [dif_pos (show (1 : Fin 2) ∈ (points2 N M A B wf).startIndexMap from (show (1 : Fin 2) ∈ [(0 : Fin 2), 1] from by decide))]
    have hsi : (points2 N M A B wf).siIdx (ix2 a b) ⟨List.idxOf (1 : Fin 2) (points2 N M A B wf).startIndexMap,
        List.idxOf_lt_length_iff.2 (show (1 : Fin 2) ∈ [(0 : Fin 2), 1] from by decide)⟩ = ix3 a b (1 : Fin 2) := by
      funext q; refine Fin.ext ?_
      match q with
      | ⟨0, _⟩ => rfl
      | ⟨1, _⟩ => rfl
      | ⟨2, _⟩ => rfl
    rw [hsi]
    rfl
  unfold Host.gather
  congr 1
  funext p
  refine Fin.ext ?_
  match p with
  | ⟨0, _⟩ => exact h0
  | ⟨1, _⟩ => exact h1

end Cert.LibGatherPoints

end
-- ==== Proof.KernelPick.lean ====
/-
  The kernel program's result at one position.

  At position `(b, t)` the gather after the region reads the region's table at the row named by the wrapped source label
  `labels[b, t]` and the column named by the wrapped target label `labels[b, t + 1]`, each clamped into the class axis. So the
  result there is the log-softmax, at the target class, of the scores of that source row.
-/
import proofs.«413635_j90718299226738_3_alg».proof.Proof.KernelRun
import proofs.«413635_j90718299226738_3_alg».proof.Proof.LabelRange
import proofs.«413635_j90718299226738_3_alg».proof.Proof.LibGatherPoints

noncomputable section

namespace Cert.KernelIdeal.Pick

open Idealize.ShloMosaic Idealize.ShloMosaic.ValueIdx
open Cert.KernelIdeal Cert.KernelIdeal.Gen Cert.KernelIdeal.Table Cert.KernelIdeal.Run Cert.LogSoftmax Cert.LabelRange
open Cert.LibGatherPoints

/-- The wrap of a label array, at a position: the wrap of the label there. -/
theorem wrap_at (l : IVec S64x511 32) (i : S64x511.Idx) : wrap l i = wrapWord (l i) := rfl

/-- Two columns joined on a trailing axis, read at component 0: the first column. -/
theorem concat_at_0 (u v : IVec S64x511x1 32) (b : Fin 64) (t : Fin 511) :
    concatenate S64x511x2 2 [⟨S64x511x1, u⟩, ⟨S64x511x1, v⟩] concatenates_S64x511x1_S64x511x1_S64x511x2_d2 (ix3 b t (0 : Fin 2))
      = u (ix3 b t (0 : Fin 1)) :=
  concatenate_pair_apply_left 2 u v concatenates_S64x511x1_S64x511x1_S64x511x2_d2 _ rfl _ (fun a => by
    match a with
    | ⟨0, _⟩ => rfl
    | ⟨1, _⟩ => rfl
    | ⟨2, _⟩ => rfl)

/-- … at component 1: the second column. -/
theorem concat_at_1 (u v : IVec S64x511x1 32) (b : Fin 64) (t : Fin 511) :
    concatenate S64x511x2 2 [⟨S64x511x1, u⟩, ⟨S64x511x1, v⟩] concatenates_S64x511x1_S64x511x1_S64x511x2_d2 (ix3 b t (1 : Fin 2))
      = v (ix3 b t (0 : Fin 1)) :=
  concatenate_pair_apply_right 2 u v concatenates_S64x511x1_S64x511x1_S64x511x2_d2 _ rfl rfl _
    (fun a ha => by
      match a with
      | ⟨0, _⟩ => rfl
      | ⟨1, _⟩ => rfl
      | ⟨2, _⟩ => exact absurd rfl ha)
    rfl

/-- A label array as a column, read at `(b, t, 0)`: the label at `(b, t)`. -/
theorem column_at (l : IVec S64x511 32) (b : Fin 64) (t : Fin 511) :
    broadcastInDim S64x511x1 ![0, 1] bcast_S64x511_S64x511x1_0_1 l (ix3 b t (0 : Fin 1)) = l (ix2 b t) :=
  broadcastInDim_apply _ bcast_S64x511_S64x511x1_0_1 l (ix3 b t (0 : Fin 1)) (ix2 b t) (fun a => by
    match a with
    | ⟨0, _⟩ => show b.val = if (64 : Nat) = 1 then 0 else b.val; rw [if_neg (by decide)]
    | ⟨1, _⟩ => show t.val = if (511 : Nat) = 1 then 0 else t.val; rw [if_neg (by decide)])

/-- The paired start indices at `(b, t)`: component 0 the wrapped source label, component 1 the wrapped target label. -/
theorem pairIdx_0 (l0 l1 : IVec S64x511 32) (b : Fin 64) (t : Fin 511) :
    pairIdx l0 l1 (ix3 b t (0 : Fin 2)) = wrapWord (l0 (ix2 b t)) := by
  unfold pairIdx
  rw [concat_at_0, column_at]
  rfl

theorem pairIdx_1 (l0 l1 : IVec S64x511 32) (b : Fin 64) (t : Fin 511) :
    pairIdx l0 l1 (ix3 b t (1 : Fin 2)) = wrapWord (l1 (ix2 b t)) := by
  unfold pairIdx
  rw [concat_at_1, column_at]
  rfl

/-- The gather after the region at `(b, t)`: the table at the two clamped wrapped labels. -/
theorem pick_at (tbl : S2048x2048.Idx → EReal) (l0 l1 : IVec S64x511 32) (b : Fin 64) (t : Fin 511) :
    pick tbl l0 l1 (ix2 b t)
      = tbl (ix2 (clampIdx (wrapWord (l0 (ix2 b t)))) (clampIdx (wrapWord (l1 (ix2 b t))))) := by
  unfold pick
  refine (gather_points2_apply (N := 2048) (M := 2048) (A := 64) (B := 511) (by decide) (by decide)
    gather_S2048x2048_S64x511x2_S64x511_n_01_n_n_01_2_11_wf tbl (pairIdx l0 l1) b t).trans ?_
  exact congrArg tbl (congrArg₂ (fun r l : Fin 2048 => ix2 r l) (clamp_eq _ _ (pairIdx_0 l0 l1 b t) _)
    (clamp_eq _ _ (pairIdx_1 l0 l1 b t) _))

/-- The two label slices at `(b, t)`: columns `t` and `t + 1` of row `b`. -/
theorem sliceS_at (x0 : IVec S64x512 32) (b : Fin 64) (t : Fin 511) :
    extractStridedSlice S64x511 ![0, 0] x0 slices_S64x512_S64x511_0_0 (ix2 b t) = x0 (ix2 b (colS t)) :=
  extractStridedSlice_apply ![0, 0] x0 slices_S64x512_S64x511_0_0 (ix2 b t) (ix2 b (colS t)) (fun a => by
    match a with
    | ⟨0, _⟩ => show b.val = 0 + b.val; omega
    | ⟨1, _⟩ => show t.val = 0 + t.val; omega)

theorem sliceT_at (x0 : IVec S64x512 32) (b : Fin 64) (t : Fin 511) :
    extractStridedSlice S64x511 ![0, 1] x0 slices_S64x512_S64x511_0_1 (ix2 b t) = x0 (ix2 b (colT t)) :=
  extractStridedSlice_apply ![0, 1] x0 slices_S64x512_S64x511_0_1 (ix2 b t) (ix2 b (colT t)) (fun a => by
    match a with
    | ⟨0, _⟩ => show b.val = 0 + b.val; omega
    | ⟨1, _⟩ => show 1 + t.val = 1 + t.val; rfl)

/-- THE RESULT AT `(b, t)`: the log-softmax, at the clamped wrapped target label, of the scores of the source row named by
    the clamped wrapped source label. -/
theorem result_at (x0 : IVec S64x512 32) (x1 x2 : S2048x512.Idx → EReal) (b : Fin 64) (t : Fin 511) :
    result x0 x1 x2 (ix2 b t)
      = logSoftmax (scores (fun k => x1 (ix2 (clampIdx (wrapWord (x0 (ix2 b (colS t))))) k)) (fun l k => x2 (ix2 l k)))
          (clampIdx (wrapWord (x0 (ix2 b (colT t))))) := by
  unfold result
  rw [pick_at, sliceS_at, sliceT_at]
  rfl

end Cert.KernelIdeal.Pick

end
-- ==== Proof.RefRun.lean ====
/-
  The reference's run, read back stretch by stretch.

  The reference is a straight line of 51 host operations: the index arithmetic and the row gather and scalar products
  (the scores), the log-softmax of every score row, and the pick of one class per position. The buffer contents after
  the whole line are computed one stretch at a time: what a stretch leaves in the buffers the next stretch reads is
  named by the stage functions (one per operation, each a function of the three argument arrays), so that no
  stretch ever opens the stretches before it.
-/
import proofs.«413635_j90718299226738_3_alg».proof.Proof.RefRunBase
import proofs.«413635_j90718299226738_3_alg».proof.Proof.RefRead
import Idealize.ShloMosaic.Lib.Pipeline.Frame

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The scores: the first 12 operations. -/
abbrev opsA : List (HloOp τ sig (Elt F)) := (ops (F := F)).take 12
/-- The log-softmax: the next 15. -/
abbrev opsB : List (HloOp τ sig (Elt F)) := ((ops (F := F)).drop 12).take 15
/-- The pick: the last 24 — the wrap of the target labels (8), -/
abbrev opsC1 : List (HloOp τ sig (Elt F)) := ((ops (F := F)).drop 27).take 8
/-- their reshape to start indices (1), -/
abbrev opsC2 : List (HloOp τ sig (Elt F)) := ((ops (F := F)).drop 35).take 1
/-- and the in-bounds test, the gather and the select (15). -/
abbrev opsC3 : List (HloOp τ sig (Elt F)) := (ops (F := F)).drop 36

theorem ops_split : (ops (F := F)) = opsA ++ (opsB ++ (opsC1 ++ (opsC2 ++ opsC3))) := by
  show ops = List.take 12 ops ++ (List.take 15 (List.drop 12 ops) ++ (List.take 8 (List.drop 27 ops)
    ++ (List.take 1 (List.drop 35 ops) ++ List.drop 36 ops)))
  rw [show List.drop 36 (ops (F := F)) = List.drop 1 (List.drop 35 ops) from rfl, List.take_append_drop,
    show List.drop 35 (ops (F := F)) = List.drop 8 (List.drop 27 ops) from rfl, List.take_append_drop,
    show List.drop 27 (ops (F := F)) = List.drop 15 (List.drop 12 ops) from rfl, List.take_append_drop, List.take_append_drop]

/-- After the first stretch the score buffer holds the scores' stage. -/
theorem stageA_v9 (V : Valuation τ sig (Elt F)) :
    after opsA V (Proc.devRef .tc main_v9)
      = val_main_v9 (F := F) (V (Proc.devRef .tc main_arg0)) (V (Proc.devRef .tc main_arg1)) (V (Proc.devRef .tc main_arg2)) := by
  simp only [opsA, ops, List.take_succ_cons, List.take_zero]
  after_results
  rfl

/-- … and the buffer of the shifted labels their slice. -/
theorem stageA_v1 (V : Valuation τ sig (Elt F)) :
    after opsA V (Proc.devRef .tc main_v1) = val_main_v1 (F := F) (V (Proc.devRef .tc main_arg0)) := by
  simp only [opsA, ops, List.take_succ_cons, List.take_zero]
  after_results
  rfl

/-- The log-softmax stretch: from the scores' stage in the score buffer to the log-probabilities' stage. -/
theorem stageB_v10 (W : Valuation τ sig (Elt F)) (x0 : (⟨S64x512, .i32⟩ : BufTy).Contents (Elt F))
    (x1 x2 : (⟨S2048x512, .f32⟩ : BufTy).Contents (Elt F))
    (h9 : W (Proc.devRef .tc main_v9) = val_main_v9 (F := F) x0 x1 x2) :
    after opsB W (Proc.devRef .tc main_v10) = val_main_v10 (F := F) x0 x1 x2 := by
  simp only [opsB, ops, List.drop_succ_cons, List.drop_zero, List.take_succ_cons, List.take_zero]
  dsimp only [TRef.nullary, TRef.unary, TRef.binary, TRef.ternary, TRef.toBuf, TRef.ofBuf, TRef.of, cast_eq]
  after_results
  rw [h9]
  rfl

/-- It leaves the shifted labels where they were. -/
theorem stageB_v1 (W : Valuation τ sig (Elt F)) :
    after opsB W (Proc.devRef .tc main_v1) = W (Proc.devRef .tc main_v1) := by
  simp only [opsB, ops, List.drop_succ_cons, List.drop_zero, List.take_succ_cons, List.take_zero]
  after_results

/-- The wrap of the target labels: from the shifted labels to the wrapped labels' stage. -/
theorem stageC1_v4 (W : Valuation τ sig (Elt F)) (x0 : (⟨S64x512, .i32⟩ : BufTy).Contents (Elt F))
    (h1 : W (Proc.devRef .tc main_v1) = val_main_v1 (F := F) x0) :
    after opsC1 W (Proc.devRef .tc main_call1_v4) = val_main_call1_v4 (F := F) x0 := by
  simp only [opsC1, ops, List.drop_succ_cons, List.drop_zero, List.take_succ_cons, List.take_zero]
  dsimp only [TRef.nullary, TRef.unary, TRef.binary, TRef.ternary, TRef.toBuf, TRef.ofBuf, TRef.of, cast_eq]
  after_results
  rw [h1]
  rfl

/-- It leaves the log-probabilities where they were. -/
theorem stageC1_v10 (W : Valuation τ sig (Elt F)) :
    after opsC1 W (Proc.devRef .tc main_v10) = W (Proc.devRef .tc main_v10) := by
  simp only [opsC1, ops, List.drop_succ_cons, List.drop_zero, List.take_succ_cons, List.take_zero]
  dsimp only [TRef.nullary, TRef.unary, TRef.binary, TRef.ternary, TRef.toBuf, TRef.ofBuf, TRef.of, cast_eq]
  after_results

/-- The reshape of the wrapped labels to start indices. -/
theorem stageC2_v5 (W : Valuation τ sig (Elt F)) (x0 : (⟨S64x512, .i32⟩ : BufTy).Contents (Elt F))
    (h4 : W (Proc.devRef .tc main_call1_v4) = val_main_call1_v4 (F := F) x0) :
    after opsC2 W (Proc.devRef .tc main_call1_v5) = val_main_call1_v5 (F := F) x0 := by
  simp only [opsC2, ops, List.drop_succ_cons, List.drop_zero, List.take_succ_cons, List.take_zero]
  dsimp only [TRef.reshape, TRef.of]
  after_results
  rw [h4]
  rfl

theorem stageC2_v10 (W : Valuation τ sig (Elt F)) :
    after opsC2 W (Proc.devRef .tc main_v10) = W (Proc.devRef .tc main_v10) := by
  simp only [opsC2, ops, List.drop_succ_cons, List.drop_zero, List.take_succ_cons, List.take_zero]
  dsimp only [TRef.reshape, TRef.of]
  after_results

/-- The pick proper: from the start indices' and the log-probabilities' stages to the result's stage. -/
theorem stageC3_v13 (W : Valuation τ sig (Elt F)) (x0 : (⟨S64x512, .i32⟩ : BufTy).Contents (Elt F))
    (x1 x2 : (⟨S2048x512, .f32⟩ : BufTy).Contents (Elt F))
    (h5 : W (Proc.devRef .tc main_call1_v5) = val_main_call1_v5 (F := F) x0)
    (h10 : W (Proc.devRef .tc main_v10) = val_main_v10 (F := F) x0 x1 x2) :
    after opsC3 W (Proc.devRef .tc main_v13) = val_main_v13 (F := F) x0 x1 x2 := by
  simp only [opsC3, ops, List.drop_succ_cons, List.drop_zero]
  dsimp only [TRef.nullary, TRef.unary, TRef.binary, TRef.ternary, TRef.toBuf, TRef.ofBuf, TRef.of, cast_eq]
  after_results
  rw [h5, h10]
  rfl

/-- The whole line: the result buffer ends at the result's stage of the launch contents of the arguments. -/
theorem after_ops_v13 (V : Valuation τ sig (Elt F)) :
    after ops V (Proc.devRef .tc main_v13)
      = val_main_v13 (F := F) (V (Proc.devRef .tc main_arg0)) (V (Proc.devRef .tc main_arg1)) (V (Proc.devRef .tc main_arg2)) := by
  rw [ops_split, StableHlo.after_append, StableHlo.after_append, StableHlo.after_append, StableHlo.after_append]
  exact stageC3_v13 _ _ _ _
    (stageC2_v5 _ _ (stageC1_v4 _ _ ((stageB_v1 _).trans (stageA_v1 V))))
    ((stageC2_v10 _).trans ((stageC1_v10 _).trans (stageB_v10 _ _ _ _ (stageA_v9 V))))

set_option maxRecDepth 8192 in
set_option maxHeartbeats 2000000 in
/-- On every device, from any memory with zero counters: every weakly fair execution of the reference terminates with
    the result at its stage of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
        = val_main_v13 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v13).trans (after_ops_v13 _),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefRun

end
-- ==== Proof.LibGatherRows.lean ====
/-
  A `stablehlo.gather` that picks whole ROWS of a matrix, read at an index.

  What `x[idx]` (and `jnp.take(x, idx, axis=0)`) of a matrix `x : [N, M]` at an integer array `idx` lowers to: offset axis the
  last one, the operand's axis 0 collapsed, start_index_map `[0]`, slice sizes `[1, M]`, the index vector on a trailing
  axis of size 1. Result element `(…, c)` is `x` at row `idx[…, 0]` — read as a signed integer and clamped into
  `[0, N − 1]`, as the gather clamps every start index — and column `c`. Stated for start indices of rank 3
  (`[A, B, 1]`) and of rank 4 (`[A, B, C, 1]`).
-/
import Idealize.ShloMosaic.PureOps.ShapeOps
import Idealize.ShloMosaic.Lib.ValueIdx

noncomputable section

namespace Cert.LibGatherRows

open Idealize.ShloMosaic Idealize.ShloMosaic.ValueIdx

variable {α : Type}

/-- The dimension numbers of a row gather with start indices `[A, B, 1]`: operand `[N, M]`, result `[A, B, M]`. -/
abbrev rows3 (N M A B : Nat)
    (wf : GatherDims.WF ⟨2, ![N, M]⟩ ⟨3, ![A, B, 1]⟩ ⟨3, ![A, B, M]⟩ [2] [0] [] [0] [] 2 ![1, M]) :
    GatherDims ⟨2, ![N, M]⟩ ⟨3, ![A, B, 1]⟩ ⟨3, ![A, B, M]⟩ where
  offsetDims := [2]
  collapsedSliceDims := [0]
  operandBatchingDims := []
  startIndicesBatchingDims := []
  startIndexMap := [0]
  indexVectorDim := 2
  sliceSizes := ![1, M]
  wf := wf

/-- THE ROW GATHER READ AT `(a, b, c)`: row `idx[a, b, 0]` (signed, clamped into `[0, N − 1]`), column `c`. -/
theorem gather_rows3_apply {N M A B w : Nat} (hN : 0 < N)
    (wf : GatherDims.WF ⟨2, ![N, M]⟩ ⟨3, ![A, B, 1]⟩ ⟨3, ![A, B, M]⟩ [2] [0] [] [0] [] 2 ![1, M])
    (x : (⟨2, ![N, M]⟩ : Shape).Idx → α) (idx : IVec ⟨3, ![A, B, 1]⟩ w) (a : Fin A) (b : Fin B) (c : Fin M) :
    Host.gather (rows3 N M A B wf) x idx (ix3 a b c)
      = x (ix2 ⟨min (idx (ix3 a b (0 : Fin 1))).toInt.toNat (N - 1), by omega⟩ c) := by
  -- The gather reads the operand at its operand index, so it is enough to compare the two operand indices
  -- coordinate by coordinate. There is no batching axis: the batching coordinate vanishes on both operand axes.
  -- Row axis (axis 0). It is collapsed, so it gets no offset coordinate; the start index map names it, so its start
  -- is the index found at the result's batch coordinates, read signed and clamped into [0, N - 1].
  have h0 : (rows3 N M A B wf).start (ix3 a b c) idx 0 + (rows3 N M A B wf).batchCoord (ix3 a b c) 0
      + (rows3 N M A B wf).offCoord (ix3 a b c) 0
      = min (idx (ix3 a b (0 : Fin 1))).toInt.toNat (N - 1) := by
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rows3 N M A B wf).startIndexMap from List.mem_singleton.mpr rfl)]
    -- the start-indices index read for component 0: the batch coordinates, then 0 on the index vector's axis
    have hsi : (rows3 N M A B wf).siIdx (ix3 a b c) ⟨List.idxOf (0 : Fin 2) (rows3 N M A B wf).startIndexMap,
        List.idxOf_lt_length_iff.2 (List.mem_singleton.mpr rfl)⟩ = ix3 a b (0 : Fin 1) := by
      funext q; refine Fin.ext ?_
      match q with
      | ⟨0, _⟩ => rfl
      | ⟨1, _⟩ => rfl
      | ⟨2, _⟩ => rfl
    rw [hsi]
    rfl
  -- Column axis (axis 1). The start index map does not name it, so its start is 0; it is the one kept operand axis,
  -- so its offset coordinate is the result's coordinate on the one offset axis, the last.
  have h1 : (rows3 N M A B wf).start (ix3 a b c) idx 1 + (rows3 N M A B wf).batchCoord (ix3 a b c) 1
      + (rows3 N M A B wf).offCoord (ix3 a b c) 1 = c.val := by
    rw [GatherDims.batchCoord_eq_zero _ _ _ List.not_mem_nil]
    unfold GatherDims.start
    rw [dif_neg (show (1 : Fin 2) ∉ (rows3 N M A B wf).startIndexMap from
      fun h => absurd (List.mem_singleton.mp h) (show ¬ (1 : Fin 2) = 0 from by decide))]
    unfold GatherDims.offCoord
    rw [dif_pos (show (1 : Fin 2) ∈ (rows3 N M A B wf).sKept from
      (GatherDims.mem_sKept _ _).mpr ⟨fun h => absurd (List.mem_singleton.mp h) (show ¬ (1 : Fin 2) = 0 from by decide),
        List.not_mem_nil⟩)]
    simp only [Nat.zero_add]
    rfl
  unfold Host.gather
  congr 1
  funext p
  refine Fin.ext ?_
  match p with
  | ⟨0, _⟩ => exact h0
  | ⟨1, _⟩ => exact h1

/-- The dimension numbers of a row gather with start indices `[A, B, C, 1]`: operand `[N, M]`, result `[A, B, C, M]`. -/
abbrev rows4 (N M A B C : Nat)
    (wf : GatherDims.WF ⟨2, ![N, M]⟩ ⟨4, ![A, B, C, 1]⟩ ⟨4, ![A, B, C, M]⟩ [3] [0] [] [0] [] 3 ![1, M]) :
    GatherDims ⟨2, ![N, M]⟩ ⟨4, ![A, B, C, 1]⟩ ⟨4, ![A, B, C, M]⟩ where
  offsetDims := [3]
  collapsedSliceDims := [0]
  operandBatchingDims := []
  startIndicesBatchingDims := []
  startIndexMap := [0]
  indexVectorDim := 3
  sliceSizes := ![1, M]
  wf := wf

/-- THE ROW GATHER READ AT `(a, b, c, e)`: row `idx[a, b, c, 0]` (signed, clamped into `[0, N − 1]`), column `e`. -/
theorem gather_rows4_apply {N M A B C w : Nat} (hN : 0 < N)
    (wf : GatherDims.WF ⟨2, ![N, M]⟩ ⟨4, ![A, B, C, 1]⟩ ⟨4, ![A, B, C, M]⟩ [3] [0] [] [0] [] 3 ![1, M])
    (x : (⟨2, ![N, M]⟩ : Shape).Idx → α) (idx : IVec ⟨4, ![A, B, C, 1]⟩ w) (a : Fin A) (b : Fin B) (c : Fin C) (e : Fin M) :
    Host.gather (rows4 N M A B C wf) x idx (ix4 a b c e)
      = x (ix2 ⟨min (idx (ix4 a b c (0 : Fin 1))).toInt.toNat (N - 1), by omega⟩ e) := by
  -- The gather reads the operand at its operand index, so it is enough to compare the two operand indices
  -- coordinate by coordinate. There is no batching axis: the batching coordinate vanishes on both operand axes.
  -- Row axis (axis 0). It is collapsed, so it gets no offset coordinate; the start index map names it, so its start
  -- is the index found at the result's batch coordinates, read signed and clamped into [0, N - 1].
  have h0 : (rows4 N M A B C wf).start (ix4 a b c e) idx 0 + (rows4 N M A B C wf).batchCoord (ix4 a b c e) 0
      + (rows4 N M A B C wf).offCoord (ix4 a b c e) 0
      = min (idx (ix4 a b c (0 : Fin 1))).toInt.toNat (N - 1) := by
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rows4 N M A B C wf).startIndexMap from List.mem_singleton.mpr rfl)]
    -- the start-indices index read for component 0: the batch coordinates, then 0 on the index vector's axis
    have hsi : (rows4 N M A B C wf).siIdx (ix4 a b c e) ⟨List.idxOf (0 : Fin 2) (rows4 N M A B C wf).startIndexMap,
        List.idxOf_lt_length_iff.2 (List.mem_singleton.mpr rfl)⟩ = ix4 a b c (0 : Fin 1) := by
      funext q; refine Fin.ext ?_
      match q with
      | ⟨0, _⟩ => rfl
      | ⟨1, _⟩ => rfl
      | ⟨2, _⟩ => rfl
      | ⟨3, _⟩ => rfl
    rw [hsi]
    rfl
  -- Column axis (axis 1). The start index map does not name it, so its start is 0; it is the one kept operand axis,
  -- so its offset coordinate is the result's coordinate on the one offset axis, the last.
  have h1 : (rows4 N M A B C wf).start (ix4 a b c e) idx 1 + (rows4 N M A B C wf).batchCoord (ix4 a b c e) 1
      + (rows4 N M A B C wf).offCoord (ix4 a b c e) 1 = e.val := by
    rw [GatherDims.batchCoord_eq_zero _ _ _ List.not_mem_nil]
    unfold GatherDims.start
    rw [dif_neg (show (1 : Fin 2) ∉ (rows4 N M A B C wf).startIndexMap from
      fun h => absurd (List.mem_singleton.mp h) (show ¬ (1 : Fin 2) = 0 from by decide))]
    unfold GatherDims.offCoord
    rw [dif_pos (show (1 : Fin 2) ∈ (rows4 N M A B C wf).sKept from
      (GatherDims.mem_sKept _ _).mpr ⟨fun h => absurd (List.mem_singleton.mp h) (show ¬ (1 : Fin 2) = 0 from by decide),
        List.not_mem_nil⟩)]
    simp only [Nat.zero_add]
    rfl
  unfold Host.gather
  congr 1
  funext p
  refine Fin.ext ?_
  match p with
  | ⟨0, _⟩ => exact h0
  | ⟨1, _⟩ => exact h1

end Cert.LibGatherRows

end
-- ==== Proof.LibGatherAlongLast.lean ====
/-
  A `stablehlo.gather` that picks ONE entry along the last axis, position by position, read at an index.

  What `jnp.take_along_axis(x, idx, axis=-1)` of `x : [A, B, N]` at `idx : [A, B, 1]` lowers to: the two leading axes
  batching axes of the operand and of the start indices, the last operand axis collapsed and the only one in the start
  index map, slice sizes `[1, 1, 1]`, the index vector on a trailing axis of size 1. Result element `(a, b, u)` is `x`
  at `(a, b, idx[a, b, u, 0])`, the index read as a signed integer and clamped into `[0, N − 1]`, as the gather clamps
  every start index.
-/
import Idealize.ShloMosaic.PureOps.ShapeOps
import Idealize.ShloMosaic.Lib.ValueIdx

noncomputable section

namespace Cert.LibGatherAlongLast

open Idealize.ShloMosaic Idealize.ShloMosaic.ValueIdx

variable {α : Type}

/-- The dimension numbers: operand `[A, B, N]`, start indices `[A, B, 1, 1]`, result `[A, B, 1]`. -/
abbrev alongLast (A B N : Nat)
    (wf : GatherDims.WF ⟨3, ![A, B, N]⟩ ⟨4, ![A, B, 1, 1]⟩ ⟨3, ![A, B, 1]⟩ [] [2] [0, 1] [2] [0, 1] 3 ![1, 1, 1]) :
    GatherDims ⟨3, ![A, B, N]⟩ ⟨4, ![A, B, 1, 1]⟩ ⟨3, ![A, B, 1]⟩ where
  offsetDims := []
  collapsedSliceDims := [2]
  operandBatchingDims := [0, 1]
  startIndicesBatchingDims := [0, 1]
  startIndexMap := [2]
  indexVectorDim := 3
  sliceSizes := ![1, 1, 1]
  wf := wf

/-- THE GATHER READ AT `(a, b, u)`: position `(a, b)`'s row at the entry `idx[a, b, u, 0]` (signed, clamped into `[0, N − 1]`). -/
theorem gather_alongLast_apply {A B N w : Nat} (hN : 0 < N)
    (wf : GatherDims.WF ⟨3, ![A, B, N]⟩ ⟨4, ![A, B, 1, 1]⟩ ⟨3, ![A, B, 1]⟩ [] [2] [0, 1] [2] [0, 1] 3 ![1, 1, 1])
    (x : (⟨3, ![A, B, N]⟩ : Shape).Idx → α) (idx : IVec ⟨4, ![A, B, 1, 1]⟩ w) (a : Fin A) (b : Fin B) (u : Fin 1) :
    Host.gather (alongLast A B N wf) x idx (ix3 a b u)
      = x (ix3 a b ⟨min (idx (ix4 a b u (0 : Fin 1))).toInt.toNat (N - 1), by omega⟩) := by
  -- A batching axis takes the result's coordinate on the batch axis paired with it: no start, no offset.
  have h0 : (alongLast A B N wf).start (ix3 a b u) idx 0 + (alongLast A B N wf).batchCoord (ix3 a b u) 0
      + (alongLast A B N wf).offCoord (ix3 a b u) 0 = a.val := by
    have hm : (0 : Fin 3) ∈ (alongLast A B N wf).operandBatchingDims := (show (0 : Fin 3) ∈ [(0 : Fin 3), 1] from by decide)
    rw [GatherDims.start_batching _ _ _ _ hm,
      GatherDims.offCoord_eq_zero _ _ _ (fun h => ((GatherDims.mem_sKept _ _).mp h).2 hm)]
    unfold GatherDims.batchCoord
    rw [dif_pos hm]
    simp only [Nat.zero_add, Nat.add_zero]
    rfl
  have h1 : (alongLast A B N wf).start (ix3 a b u) idx 1 + (alongLast A B N wf).batchCoord (ix3 a b u) 1
      + (alongLast A B N wf).offCoord (ix3 a b u) 1 = b.val := by
    have hm : (1 : Fin 3) ∈ (alongLast A B N wf).operandBatchingDims := (show (1 : Fin 3) ∈ [(0 : Fin 3), 1] from by decide)
    rw [GatherDims.start_batching _ _ _ _ hm,
      GatherDims.offCoord_eq_zero _ _ _ (fun h => ((GatherDims.mem_sKept _ _).mp h).2 hm)]
    unfold GatherDims.batchCoord
    rw [dif_pos hm]
    simp only [Nat.zero_add, Nat.add_zero]
    rfl
  -- The last axis is collapsed and the one the start index map names: the clamped start alone, read at the result's
  -- coordinates with 0 on the index vector's axis.
  have h2 : (alongLast A B N wf).start (ix3 a b u) idx 2 + (alongLast A B N wf).batchCoord (ix3 a b u) 2
      + (alongLast A B N wf).offCoord (ix3 a b u) 2 = min (idx (ix4 a b u (0 : Fin 1))).toInt.toNat (N - 1) := by
    rw [GatherDims.batchCoord_eq_zero _ _ _ (show (2 : Fin 3) ∉ [(0 : Fin 3), 1] from by decide),
      GatherDims.offCoord_eq_zero _ _ _
        (fun h => ((GatherDims.mem_sKept _ _).mp h).1 (List.mem_singleton.mpr rfl))]
    simp only [Nat.add_zero]
    unfold GatherDims.start
    rw [dif_pos (show (2 : Fin 3) ∈ (alongLast A B N wf).startIndexMap from List.mem_singleton.mpr rfl)]
    have hsi : (alongLast A B N wf).siIdx (ix3 a b u) ⟨List.idxOf (2 : Fin 3) (alongLast A B N wf).startIndexMap,
        List.idxOf_lt_length_iff.2 (List.mem_singleton.mpr rfl)⟩ = ix4 a b u (0 : Fin 1) := by
      funext q; refine Fin.ext ?_
      match q with
      | ⟨0, _⟩ => rfl
      | ⟨1, _⟩ => rfl
      | ⟨2, _⟩ => rfl
      | ⟨3, _⟩ => rfl
    rw [hsi]
    rfl
  unfold Host.gather
  congr 1
  funext p
  refine Fin.ext ?_
  match p with
  | ⟨0, _⟩ => exact h0
  | ⟨1, _⟩ => exact h1
  | ⟨2, _⟩ => exact h2

end Cert.LibGatherAlongLast

end
-- ==== Proof.RefPick.lean ====
/-
  The reference's result at one position.

  At position `(b, t)` the reference gathers the source row named by the wrapped source label `labels[b, t]` (clamped into
  the class axis), takes its scalar products with every target row, the log-softmax of that score row, and picks the
  entry named by the wrapped target label `labels[b, t + 1]` — or the pattern of a NaN where that label is outside the class
  axis. For a target label in range the in-bounds test is true, and the result is the log-softmax, at the target class,
  of the scores of the source row.
-/
import proofs.«413635_j90718299226738_3_alg».proof.Proof.RefRead
import proofs.«413635_j90718299226738_3_alg».proof.Proof.LogSoftmax
import proofs.«413635_j90718299226738_3_alg».proof.Proof.LabelRange
import proofs.«413635_j90718299226738_3_alg».proof.Proof.LibGatherRows
import proofs.«413635_j90718299226738_3_alg».proof.Proof.LibGatherAlongLast
import Idealize.ShloMosaic.PureOps.Reduce

noncomputable section

namespace Cert.ReferenceIdeal.Pick

open Idealize.ShloMosaic Idealize.ShloMosaic.ValueIdx
open Cert.ReferenceIdeal Cert.ReferenceIdeal.Gen Cert.ReferenceIdeal.ReadP Cert.LogSoftmax Cert.LabelRange
open Cert.LibGatherRows Cert.LibGatherAlongLast

variable (x0 : (⟨S64x512, .i32⟩ : BufTy).Contents (Elt Ideal)) (x1 x2 : (⟨S2048x512, .f32⟩ : BufTy).Contents (Elt Ideal))

/-- The fold of `and` over an axis of extent one is its one entry joined with the initial value. -/
theorem fold_andi_fin1 (f : Fin 1 → BitVec 1) (v : BitVec 1) :
    (Finset.univ : Finset (Fin 1)).fold IntOp.andi v f = IntOp.andi (f 0) v := by
  rw [Finset.univ_unique, Finset.fold_singleton]
  rfl

/-! ## The scores -/

/-- The wrapped source label at `(b, t)`. -/
theorem v6_at (b : Fin 64) (t : Fin 511) :
    val_main_v6 (F := Ideal) x0 (ix2 b t) = wrapWord (x0 (ix2 b (colS t))) := by
  rw [val_main_v6_apply, val_main_v3_apply, val_main_v5_apply, val_main_v2_apply, val_main_v4_apply, val_main_v0_apply,
    val_main_c_apply, val_main_c_0_apply]
  have e : idx_main_v0 (ix2 b t) = ix2 b (colS t) :=
    funext fun a => Fin.ext (by match a with | ⟨0, _⟩ => rfl | ⟨1, _⟩ => rfl)
  rw [e]
  rfl

theorem v7_at (b : Fin 64) (t : Fin 511) :
    val_main_v7 (F := Ideal) x0 (ix3 b t (0 : Fin 1)) = wrapWord (x0 (ix2 b (colS t))) := by
  rw [val_main_v7_apply]
  have e : idx_main_v7 (ix3 b t (0 : Fin 1)) = ix2 b t :=
    funext fun a => Fin.ext (by match a with | ⟨0, _⟩ => rfl | ⟨1, _⟩ => rfl)
  rw [e, v6_at]

/-- The gathered source row at `(b, t)`, feature `k`. -/
theorem v8_at (b : Fin 64) (t : Fin 511) (k : Fin 512) :
    val_main_v8 (F := Ideal) x0 x1 (ix3 b t k) = x1 (ix2 (clampIdx (wrapWord (x0 (ix2 b (colS t))))) k) := by
  unfold val_main_v8
  refine (gather_rows3_apply (N := 2048) (M := 512) (A := 64) (B := 511) (by decide)
    gather_S2048x512_S64x511x1_S64x511x512_2_0_n_n_0_2_1512_wf x1 (val_main_v7 (F := Ideal) x0) b t k).trans ?_
  exact congrArg x1 (congrArg (fun r : Fin 2048 => ix2 r k) (clamp_eq _ _ (v7_at x0 b t) _))

/-- The score of position `(b, t)` against target row `l`. -/
theorem v9_at (b : Fin 64) (t : Fin 511) (l : Fin 2048) :
    val_main_v9 (F := Ideal) x0 x1 x2 (ix3 b t l)
      = scores (fun k => x1 (ix2 (clampIdx (wrapWord (x0 (ix2 b (colS t))))) k)) (fun l k => x2 (ix2 l k)) l := by
  rw [val_main_v9_apply]
  unfold scores
  refine Finset.sum_congr rfl fun k _ => ?_
  have el : lidx_main_v9 (ix3 b t l) k = ix3 b t k :=
    funext fun a => Fin.ext (by match a with | ⟨0, _⟩ => rfl | ⟨1, _⟩ => rfl | ⟨2, _⟩ => rfl)
  have er : ridx_main_v9 (ix3 b t l) k = ix2 l k :=
    funext fun a => Fin.ext (by match a with | ⟨0, _⟩ => rfl | ⟨1, _⟩ => rfl)
  rw [el, er, v8_at]

/-! ## The log-softmax of a score row -/

/-- The score row of position `(b, t)`. -/
abbrev zrow (b : Fin 64) (t : Fin 511) : Fin 2048 → EReal := fun l => val_main_v9 (F := Ideal) x0 x1 x2 (ix3 b t l)

/-- The reduced maximum of the score row. -/
theorem call0_v0_at (b : Fin 64) (t : Fin 511) :
    val_main_call0_v0 (F := Ideal) x0 x1 x2 (ix2 b t) = rowMax (zrow x0 x1 x2 b t) := by
  unfold val_main_call0_v0
  refine (Host.reduce_eq_fold_single (FloatOps.maximumf (F := Ideal) (φ := .f32)) _ _ reducesTo_S64x511x2048_S64x511_d2
    (by decide) h_S_ (ix2 b t)).trans ?_
  unfold rowMax
  refine congrArg (fun f : Fin 2048 → EReal => (Finset.univ : Finset (Fin 2048)).fold max negInf f) (funext fun k => ?_)
  exact congrArg (val_main_v9 (F := Ideal) x0 x1 x2)
    (funext fun a => Fin.ext (by match a with | ⟨0, _⟩ => rfl | ⟨1, _⟩ => rfl | ⟨2, _⟩ => rfl))

/-- … joined once more with −∞: the same. -/
theorem call0_v2_at (b : Fin 64) (t : Fin 511) :
    val_main_call0_v2 (F := Ideal) x0 x1 x2 (ix2 b t) = rowMax (zrow x0 x1 x2 b t) := by
  rw [val_main_call0_v2_apply, val_main_call0_v1_apply, val_main_call0_cst_0_apply, call0_v0_at]
  exact max_negInf_rowMax _

/-- The shifted score. -/
theorem call0_v5_at (b : Fin 64) (t : Fin 511) (l : Fin 2048) :
    val_main_call0_v5 (F := Ideal) x0 x1 x2 (ix3 b t l) = zrow x0 x1 x2 b t l - rowMax (zrow x0 x1 x2 b t) := by
  rw [val_main_call0_v5_apply, val_main_call0_v4_apply]
  have e4 : idx_main_call0_v4 (ix3 b t l) = ix3 b t (0 : Fin 1) :=
    funext fun a => Fin.ext (by match a with | ⟨0, _⟩ => rfl | ⟨1, _⟩ => rfl | ⟨2, _⟩ => rfl)
  rw [e4, val_main_call0_v3_apply]
  have e3 : idx_main_call0_v3 (ix3 b t (0 : Fin 1)) = ix2 b t :=
    funext fun a => Fin.ext (by match a with | ⟨0, _⟩ => rfl | ⟨1, _⟩ => rfl)
  rw [e3, call0_v2_at]
  rfl

/-- The sum of the exponentials of the shifted scores. -/
theorem call0_v7_at (b : Fin 64) (t : Fin 511) :
    val_main_call0_v7 (F := Ideal) x0 x1 x2 (ix2 b t)
      = ∑ l : Fin 2048, Ideal.exp (zrow x0 x1 x2 b t l - rowMax (zrow x0 x1 x2 b t)) := by
  rw [val_main_call0_v7_apply, val_main_call0_cst_1_apply]
  show Ideal.ofBits .f32 0x00000000#32 + _ = _
  rw [Ideal.ofBits_zero_f32, zero_add]
  refine Finset.sum_congr rfl fun k _ => ?_
  have e7 : idx_main_call0_v7 (ix2 b t) k = ix3 b t k :=
    funext fun a => Fin.ext (by match a with | ⟨0, _⟩ => rfl | ⟨1, _⟩ => rfl | ⟨2, _⟩ => rfl)
  rw [e7, val_main_call0_v6_apply, call0_v5_at]
  rfl

/-- THE LOG-PROBABILITIES at `(b, t, l)`: the log-softmax of the score row at class `l`. -/
theorem v10_at (b : Fin 64) (t : Fin 511) (l : Fin 2048) :
    val_main_v10 (F := Ideal) x0 x1 x2 (ix3 b t l) = logSoftmax (zrow x0 x1 x2 b t) l := by
  rw [val_main_v10_apply, val_main_call0_v10_apply]
  have e10 : idx_main_call0_v10 (ix3 b t l) = ix3 b t (0 : Fin 1) :=
    funext fun a => Fin.ext (by match a with | ⟨0, _⟩ => rfl | ⟨1, _⟩ => rfl | ⟨2, _⟩ => rfl)
  rw [e10, val_main_call0_v9_apply, val_main_call0_v8_apply]
  have e8 : idx_main_call0_v8 (ix3 b t (0 : Fin 1)) = ix2 b t :=
    funext fun a => Fin.ext (by match a with | ⟨0, _⟩ => rfl | ⟨1, _⟩ => rfl)
  rw [e8, call0_v7_at, call0_v5_at]
  rfl

/-! ## The pick -/

/-- The wrapped target label at `(b, t)`, as the start index of the pick. -/
theorem call1_v5_at (b : Fin 64) (t : Fin 511) :
    val_main_call1_v5 (F := Ideal) x0 (ix4 b t (0 : Fin 1) (0 : Fin 1)) = wrapWord (x0 (ix2 b (colT t))) := by
  rw [val_main_call1_v5_apply]
  have e5 : idx_main_call1_v5 (ix4 b t (0 : Fin 1) (0 : Fin 1)) = ix3 b t (0 : Fin 1) :=
    funext fun a => Fin.ext (by
      have hb := b.isLt; have ht := t.isLt
      match a with
      | ⟨0, _⟩ => show (((b.val * 511 + t.val) * 1 + 0) * 1 + 0) / 511 = b.val; omega
      | ⟨1, _⟩ => show (((b.val * 511 + t.val) * 1 + 0) * 1 + 0) / 1 % 511 = t.val; omega
      | ⟨2, _⟩ => rfl)
  rw [e5, val_main_call1_v4_apply, val_main_call1_v1_apply, val_main_call1_v3_apply, val_main_call1_v0_apply,
    val_main_call1_v2_apply, val_main_call1_c_apply, val_main_call1_c_0_apply, val_main_v11_apply]
  have e11 : idx_main_v11 (ix3 b t (0 : Fin 1)) = ix2 b t :=
    funext fun a => Fin.ext (by match a with | ⟨0, _⟩ => rfl | ⟨1, _⟩ => rfl)
  rw [e11, val_main_v1_apply]
  have e1 : idx_main_v1 (ix2 b t) = ix2 b (colT t) :=
    funext fun a => Fin.ext (by match a with | ⟨0, _⟩ => rfl | ⟨1, _⟩ => rfl)
  rw [e1]
  rfl

/-- For a target label in range the in-bounds test of the pick is true. -/
theorem call1_v12_at (b : Fin 64) (t : Fin 511) (h : InRange (x0 (ix2 b (colT t)))) :
    val_main_call1_v12 (F := Ideal) x0 (ix3 b t (0 : Fin 1)) = 1#1 := by
  unfold val_main_call1_v12
  refine (Host.reduce_eq_fold_single IntOp.andi _ _ reducesTo_S64x511x1x1_S64x511x1_d3 (by decide) h_S_
    (ix3 b t (0 : Fin 1))).trans ?_
  refine (fold_andi_fin1 _ _).trans ?_
  refine IntOp.andi_eq_one.2 ⟨?_, rfl⟩
  show val_main_call1_v11 (F := Ideal) x0 (ix4 b t (0 : Fin 1) (0 : Fin 1)) = 1#1
  rw [val_main_call1_v11_apply, val_main_call1_v7_apply, val_main_call1_v10_apply, val_main_call1_v6_apply,
    val_main_call1_v9_apply, val_main_call1_v8_apply, val_main_call1_c_2_apply, val_main_call1_c_1_apply, call1_v5_at,
    wrapWord_of_inRange h]
  exact inBounds_of_inRange h

/-- The picked entry at `(b, t)`: the log-probability at the clamped wrapped target label. -/
theorem call1_v13_at (b : Fin 64) (t : Fin 511) :
    val_main_call1_v13 (F := Ideal) x0 x1 x2 (ix3 b t (0 : Fin 1))
      = logSoftmax (zrow x0 x1 x2 b t) (clampIdx (wrapWord (x0 (ix2 b (colT t))))) := by
  unfold val_main_call1_v13
  refine (gather_alongLast_apply (A := 64) (B := 511) (N := 2048) (by decide)
    gather_S64x511x2048_S64x511x1x1_S64x511x1_n_2_01_01_2_3_111_wf (val_main_v10 (F := Ideal) x0 x1 x2) (val_main_call1_v5 (F := Ideal) x0) b t (0 : Fin 1)).trans ?_
  exact (congrArg (fun r : Fin 2048 => val_main_v10 (F := Ideal) x0 x1 x2 (ix3 b t r))
    (clamp_eq _ _ (call1_v5_at x0 b t) _)).trans (v10_at x0 x1 x2 b t _)

/-- THE RESULT AT `(b, t)`, for a target label in range: the log-softmax, at the clamped wrapped target label, of the scores
    of the source row named by the clamped wrapped source label. -/
theorem result_at (b : Fin 64) (t : Fin 511) (h : InRange (x0 (ix2 b (colT t)))) :
    val_main_v13 (F := Ideal) x0 x1 x2 (ix2 b t)
      = logSoftmax (scores (fun k => x1 (ix2 (clampIdx (wrapWord (x0 (ix2 b (colS t))))) k)) (fun l k => x2 (ix2 l k)))
          (clampIdx (wrapWord (x0 (ix2 b (colT t))))) := by
  rw [val_main_v13_apply]
  have e13 : idx_main_v13 (ix2 b t) = ix3 b t (0 : Fin 1) :=
    funext fun a => Fin.ext (by
      have hb := b.isLt; have ht := t.isLt
      match a with
      | ⟨0, _⟩ => show (b.val * 511 + t.val) / 511 = b.val; omega
      | ⟨1, _⟩ => show (b.val * 511 + t.val) / 1 % 511 = t.val; omega
      | ⟨2, _⟩ => rfl)
  rw [e13, val_main_v12_apply, call1_v12_at x0 b t h, select_one, call1_v13_at]
  exact congrArg (fun z : Fin 2048 → EReal => logSoftmax z _) (funext fun l => v9_at x0 x1 x2 b t l)

end Cert.ReferenceIdeal.Pick

end
-- ==== Proof.lean ====
/-
  The certificate of the log-probability table kernel against its gather-then-softmax reference.

  THE CLAIM. For a label array `labels : i32[64, 512]` and two embedding tables `S, T : f32[2048, 512]`, the reference
  computes, at each position `(b, t)` with `t < 511`, the log-probability of the target label `labels[b, t + 1]` under the
  softmax of the scores `S[labels[b, t]] · T[l]` over all 2048 classes `l`. The kernel observes that the score row depends on
  the source label only: it computes ONCE the whole `[2048, 2048]` table of log-probabilities `logsoftmax_l (S[r] · T[l])`
  (one Pallas region of eight row tiles) and then gathers the entry `(labels[b, t], labels[b, t + 1])` per position.

  WHY THE TWO AGREE on the extended reals. Entry `(r, l)` of the table is the log-softmax at class `l` of the scores of source
  row `r` (KernelPayload.lean: the body's stored value; KernelTable.lean: the eight blocks tile the table). Both programs
  wrap a negative label by 2048 and clamp the start index of a gather into the class axis, so at `(b, t)` both read the
  source row `clamp (wrap labels[b, t])` and the class `clamp (wrap labels[b, t + 1])` (KernelPick.lean, RefPick.lean). The
  scores are the same sums of products, the row maximum the same fold of `max` from −∞ (the reference joins it with −∞ once
  more, which changes nothing), the sum of exponentials the same sum: the two results are one term (LogSoftmax.lean), with
  no appeal to finiteness.

  THE PRECONDITION. The reference's `take_along_axis` answers a NaN where the wrapped target label lies outside the class axis,
  while the kernel's gather clamps it: for such labels the claim is false. The precondition therefore also states that every
  label lies in `[0, 2047]`, the range of the axis the labels index (LabelRange.lean decodes it); it is used only to show
  that the reference's in-bounds test is true.

  THE RUNS. The kernel program's run is the generated frame run, read (KernelRun.lean: the table after the region, then the
  lines after it). The reference's run is read stretch by stretch over the stage functions of its operations (RefRun.lean).
-/
import proofs.«413635_j90718299226738_3_alg».proof.Defs
import proofs.«413635_j90718299226738_3_alg».proof.Proof.Gen.Kernel
import proofs.«413635_j90718299226738_3_alg».proof.Proof.Gen.Kernel.Skeleton
import proofs.«413635_j90718299226738_3_alg».proof.Proof.Gen.Kernel.Launch
import proofs.«413635_j90718299226738_3_alg».proof.Proof.Gen.Kernel.Points
import proofs.«413635_j90718299226738_3_alg».proof.Proof.Gen.Kernel.Frame
import proofs.«413635_j90718299226738_3_alg».proof.Proof.Gen.KernelIdeal
import proofs.«413635_j90718299226738_3_alg».proof.Proof.Gen.KernelIdeal.Skeleton
import proofs.«413635_j90718299226738_3_alg».proof.Proof.Gen.KernelIdeal.Launch
import proofs.«413635_j90718299226738_3_alg».proof.Proof.Gen.KernelIdeal.Points
import proofs.«413635_j90718299226738_3_alg».proof.Proof.Gen.KernelIdeal.Frame
import proofs.«413635_j90718299226738_3_alg».proof.Proof.Gen.ReferenceIdeal
import proofs.«413635_j90718299226738_3_alg».proof.Proof.Gen.Pre_finite_inputs
import proofs.«413635_j90718299226738_3_alg».proof.Proof.KernelPick
import proofs.«413635_j90718299226738_3_alg».proof.Proof.RefRun
import proofs.«413635_j90718299226738_3_alg».proof.Proof.RefPick
import Idealize.ShloMosaic.Adequacy
import Idealize.ShloMosaic.Init

noncomputable section

namespace Cert.Proof

open Idealize.ShloMosaic Idealize.ShloMosaic.ValueIdx Idealize.SL.Sem Cert.Kernel Cert.LabelRange

/-- The word-level kernel program runs and keeps its arguments: the generated frame. -/
theorem frame_k : Cert.frame_Kernel := fun m ρ _ => Cert.Kernel.Gen.frame m ρ

/-- The idealized kernel program likewise. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- From memories agreeing on the arguments, with every label in the class range, the two programs end with equal
    results: at each position both are the log-softmax, at the target class, of the scores of the source row. -/
theorem algebraic : Cert.algebraic_KernelIdeal_ReferenceIdeal := by
  intro m ρ m' ρ' hpre hagree
  refine ⟨fun c => Cert.KernelIdeal.Run.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  funext i
  obtain ⟨b, t, rfl⟩ : ∃ (b : Fin 64) (t : Fin 511), i = ix2 b t := ⟨i 0, i 1, eq_ix2 i⟩
  have hr := inRange_of_pre _ _ _ (hpre c) (ix2 b (colT t))
  exact (Cert.ReferenceIdeal.Pick.result_at _ _ _ b t hr).trans (Cert.KernelIdeal.Pick.result_at _ _ _ b t).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
